-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S126x16384 : Shape := ⟨2, ![126, 16384]⟩
abbrev S4096 : Shape := ⟨1, ![4096]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S126x16384 : S_.BroadcastsInDim S126x16384 (![] : Fin 0 → Fin S126x16384.rank)
  reducesTo_S126x16384_S_d0_1 : S126x16384.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : IVec S4096 32) (main_arg5 : IVec S4096 32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_c_6 : IVec S_ 32 := constantI S_ 32 0#32
  let main_v19 : IVec S4096 32 := broadcastInDim S4096 ![] bcast_S_S4096 main_c_6
  let main_v20 : IVec S4096 1 := cmpi .sge main_arg4 main_v19
  let main_c_7 : IVec S_ 32 := constantI S_ 32 128#32
  let main_v21 : IVec S4096 32 := broadcastInDim S4096 ![] bcast_S_S4096 main_c_7
  let main_v22 : IVec S4096 1 := cmpi .slt main_arg4 main_v21
  let main_v23 : IVec S4096 1 := andi main_v20 main_v22
  let main_c_8 : IVec S_ 1 := constantI S_ 1 1#1
  let main_v24 : IVec S_ 1 := (fun x v => Host.reduce IntOp.andi x v reducesTo_S4096_S_d0 h_S_) main_v23 main_c_8
  let main_v25 : IVec S_ 1 := andi main_v18 main_v24
  let main_c_9 : IVec S_ 32 := constantI S_ 32 0#32
  let main_v26 : IVec S4096 32 := broadcastInDim S4096 ![] bcast_S_S4096 main_c_9
  let main_v27 : IVec S4096 1 := cmpi .sge main_arg5 main_v26
  let main_c_10 : IVec S_ 32 := constantI S_ 32 256#32
  let main_v28 : IVec S4096 32 := broadcastInDim S4096 ![] bcast_S_S4096 main_c_10
  let main_v29 : IVec S4096 1 := cmpi .slt main_arg5 main_v28
  let main_v30 : IVec S4096 1 := andi main_v27 main_v29
  let main_c_11 : IVec S_ 1 := constantI S_ 1 1#1
  let main_v31 : IVec S_ 1 := (fun x v => Host.reduce IntOp.andi x v reducesTo_S4096_S_d0 h_S_) main_v30 main_c_11
  let main_v32 : IVec S_ 1 := andi main_v25 main_v31
  main_v32

def fn {F : FTy → Type} [FloatOps F] (main_arg0 : FVec F S16384 .f32) (main_arg1 : FVec F S16384 .f32) (main_arg2 : FVec F S126x16384 .f32) (main_arg3 : FVec F S4096 .f32) (main_arg4 : IVec S4096 32) (main_arg5 : IVec S4096 32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S126x16384 .f32 := Host.absf main_arg2
  let main_cst_2 : FVec F S_ .f32 := constant S_ .f32 0x7F800000#32
  let main_v10 : FVec F S126x16384 .f32 := broadcastInDim S126x16384 ![] bcast_S_S126x16384 main_cst_2
  let main_v11 : IVec S126x16384 1 := cmpf .olt main_v9 main_v10
  let main_c_3 : IVec S_ 1 := constantI S_ 1 1#1
  let main_v12 : IVec S_ 1 := (fun x v => Host.reduce IntOp.andi x v reducesTo_S126x16384_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S16384 : Shape := ⟨1, ![16384]⟩
abbrev S126x16384 : Shape := ⟨2, ![126, 16384]⟩
abbrev S4096 : Shape := ⟨1, ![4096]⟩
abbrev S_ : Shape := ⟨0, ![]⟩
abbrev S32768 : Shape := ⟨1, ![32768]⟩
abbrev S4096x1 : Shape := ⟨2, ![4096, 1]⟩
abbrev S256x128 : Shape := ⟨2, ![256, 128]⟩
abbrev S128x128 : Shape := ⟨2, ![128, 128]⟩
abbrev S128x126 : Shape := ⟨2, ![128, 126]⟩
abbrev S128x2 : Shape := ⟨2, ![128, 2]⟩
abbrev S1x16384 : Shape := ⟨2, ![1, 16384]⟩
abbrev S128x16384 : Shape := ⟨2, ![128, 16384]⟩
abbrev S1x4096 : Shape := ⟨2, ![1, 4096]⟩
abbrev S126x4096 : Shape := ⟨2, ![126, 4096]⟩
abbrev S128x4096 : Shape := ⟨2, ![128, 4096]⟩
abbrev S128x1 : Shape := ⟨2, ![128, 1]⟩

abbrev nBuf : Space → Nat
  | .hbm => 29
  | .vmem => 10
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S126x16384, .f32⟩
  | .hbm, ⟨3, _⟩ => ⟨S4096, .f32⟩
  | .hbm, ⟨4, _⟩ => ⟨S4096, .i32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .f32⟩
  | .hbm, ⟨11, _⟩ => ⟨S32768, .f32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S32768, .f32⟩
  | .hbm, ⟨21, _⟩ => ⟨S256x128, .f32⟩
  | .hbm, ⟨22, _⟩ => ⟨S128x128, .f32⟩
  | .hbm, ⟨23, _⟩ => ⟨S128x126, .f32⟩
  | .hbm, ⟨24, _⟩ => ⟨S128x126, .bf16⟩
  | .hbm, ⟨25, _⟩ => ⟨S128x2, .f32⟩
  | .hbm, ⟨26, _⟩ => ⟨S1x16384, .f32⟩
  | .hbm, ⟨27, _⟩ => ⟨S1x16384, .f32⟩
  | .hbm, ⟨28, _⟩ => ⟨S128x16384, .f32⟩
  | .local _ .vmem, ⟨0, _⟩ => ⟨S128x126, .bf16⟩
  | .local _ .vmem, ⟨1, _⟩ => ⟨S128x2, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S126x4096, .f32⟩
  | .local _ .vmem, ⟨7, _⟩ => ⟨S126x4096, .f32⟩
  | .local _ .vmem, ⟨8, _⟩ => ⟨S128x4096, .f32⟩
  | .local _ .vmem, ⟨9, _⟩ => ⟨S128x4096, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_c_0 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_v0 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x126 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S126x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S4096 : S_.BroadcastsInDim S4096 (![] : Fin 0 → Fin S4096.rank)
  bcast_S_S32768 : S_.BroadcastsInDim S32768 (![] : Fin 0 → Fin S32768.rank)
  bcast_S4096_S4096x1_0 : S4096.BroadcastsInDim S4096x1 (![0] : Fin 1 → Fin S4096x1.rank)
  shapeCasts_S32768_S256x128 : S32768.ShapeCasts S256x128
  slices_S256x128_S128x128_128_0 : S256x128.Slices ![128, 0] S128x128
  slices_S128x128_S128x126_0_2 : S128x128.Slices ![0, 2] S128x126
  bitsLt_bf16_f32 : FTy.bits .bf16 < FTy.bits .f32
  slices_S128x128_S128x2_0_0 : S128x128.Slices ![0, 0] S128x2
  shapeCasts_S16384_S1x16384 : S16384.ShapeCasts S1x16384
  inb_S128x126_S128x126_0_0 : ∀ a, (![0, 0] : Fin 2 → Nat) a + S128x126.size a ≤ S128x126.size a
  h_S128x126 : 0 < S128x126.numel
  shapeCasts_S128x126_S128x126 : S128x126.ShapeCasts S128x126
  inb_S126x4096_S126x4096_0_0 : ∀ a, (![0, 0] : Fin 2 → Nat) a + S126x4096.size a ≤ S126x4096.size a
  h_S126x4096 : 0 < S126x4096.numel
  inb_S128x2_S128x1_0_0 : ∀ a, (![0, 0] : Fin 2 → Nat) a + S128x1.size a ≤ S128x2.size a
  h_S128x1 : 0 < S128x1.numel
  shapeCasts_S128x1_S128x1 : S128x1.ShapeCasts S128x1
  inb_S128x2_S128x1_0_1 : ∀ a, (![0, 1] : Fin 2 → Nat) a + S128x1.size a ≤ S128x2.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S128x1_S128x4096 : S128x1.Broadcasts S128x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  scatter_S32768_S4096x1_S4096_n_0_0_1_wf : ScatterDims.WF S32768 S4096x1 S4096 [] [0] [0] 1
  dot_S128x126_S126x4096_S128x4096_1_0_0_1_n_n_wf : DotDims.WF S128x126 S126x4096 S128x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x126.size a ≤ S128x126.size a
  hwx0_0 : ∀ i : grid0.Coords, EltTy.bits .bf16 = 32 ∨ (Rect.block (s := S128x126) S128x126.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S128x2.size a
  hwx0_1 : ∀ i : grid0.Coords, EltTy.bits .f32 = 32 ∨ (Rect.block (s := S128x2) S128x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x16384.size a
  hwx0_2 : ∀ i : grid0.Coords, EltTy.bits .f32 = 32 ∨ (Rect.block (s := S1x16384) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x16384.size a
  hwx0_3 : ∀ i : grid0.Coords, EltTy.bits .f32 = 32 ∨ (Rect.block (s := S1x16384) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S126x4096.size a ≤ S126x16384.size a
  hwx0_4 : ∀ i : grid0.Coords, EltTy.bits .f32 = 32 ∨ (Rect.block (s := S126x16384) S126x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S128x16384.size a
  hwx0_5 : ∀ i : grid0.Coords, EltTy.bits .f32 = 32 ∨ (Rect.block (s := S128x16384) S128x4096.size (cc0_transform_5 i) (hinb0_5 i)).WholeWords (EltTy.packing .f32)

variable [Facts₀]

def scatter_S32768_S4096x1_S4096_n_0_0_1 : ScatterDims S32768 S4096x1 S4096 where
  updateWindowDims := []
  insertedWindowDims := [0]
  scatterDimsToOperandDims := [0]
  indexVectorDim := 1
  wf := scatter_S32768_S4096x1_S4096_n_0_0_1_wf
def dot_S128x126_S126x4096_S128x4096_1_0_0_1_n_n : DotDims S128x126 S126x4096 S128x4096 where
  lhsContracting := [1]
  rhsContracting := [0]
  lhsNonContracting := [0]
  rhsNonContracting := [1]
  lhsBatch := []
  rhsBatch := []
  wf := dot_S128x126_S126x4096_S128x4096_1_0_0_1_n_n_wf

abbrev win0_0 : Pipeline.Window sig grid0 :=
  Pipeline.Window.ofSpec (Memref.whole main_call0_v14) S128x126.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v15) S128x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S126x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384 : Shape := ⟨1, ![16384]⟩
abbrev S126x16384 : Shape := ⟨2, ![126, 16384]⟩
abbrev S4096 : Shape := ⟨1, ![4096]⟩
abbrev S1x16384 : Shape := ⟨2, ![1, 16384]⟩
abbrev S128x16384 : Shape := ⟨2, ![128, 16384]⟩
abbrev S_ : Shape := ⟨0, ![]⟩
abbrev S4096x1 : Shape := ⟨2, ![4096, 1]⟩
abbrev S4096x16384 : Shape := ⟨2, ![4096, 16384]⟩
abbrev S256x16384 : Shape := ⟨2, ![256, 16384]⟩
abbrev S1 : Shape := ⟨1, ![1]⟩

abbrev nBuf : Space → Nat
  | .hbm => 29
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S126x16384, .f32⟩
  | .hbm, ⟨3, _⟩ => ⟨S4096, .f32⟩
  | .hbm, ⟨4, _⟩ => ⟨S4096, .i32⟩
  | .hbm, ⟨5, _⟩ => ⟨S4096, .i32⟩
  | .hbm, ⟨6, _⟩ => ⟨S1x16384, .f32⟩
  | .hbm, ⟨7, _⟩ => ⟨S1x16384, .f32⟩
  | .hbm, ⟨8, _⟩ => ⟨S128x16384, .f32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S4096x16384, .f32⟩
  | .hbm, ⟨18, _⟩ => ⟨S4096x1, .f32⟩
  | .hbm, ⟨19, _⟩ => ⟨S4096x16384, .f32⟩
  | .hbm, ⟨20, _⟩ => ⟨S4096x16384, .f32⟩
  | .hbm, ⟨21, _⟩ => ⟨S_, .f32⟩
  | .hbm, ⟨22, _⟩ => ⟨S256x16384, .f32⟩
  | .hbm, ⟨23, _⟩ => ⟨S4096x1, .i32⟩
  | .hbm, ⟨24, _⟩ => ⟨S256x16384, .f32⟩
  | .hbm, ⟨25, _⟩ => ⟨S_, .i32⟩
  | .hbm, ⟨26, _⟩ => ⟨S1, .i32⟩
  | .hbm, ⟨27, _⟩ => ⟨S256x16384, .f32⟩
  | .hbm, ⟨28, _⟩ => ⟨S128x16384, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  concatenates_S1x16384_S1x16384_S126x16384_S128x16384_d0 : Shape.Concatenates [S1x16384, S1x16384, S126x16384] S128x16384 0
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x16384_0_1 : S4096x1.BroadcastsInDim S4096x16384 (![0, 1] : Fin 2 → Fin S4096x16384.rank)
  bcast_S_S256x16384 : S_.BroadcastsInDim S256x16384 (![] : Fin 0 → Fin S256x16384.rank)
  bcast_S_S1 : S_.BroadcastsInDim S1 (![] : Fin 0 → Fin S1.rank)
  slices_S256x16384_S128x16384_128_0 : S256x16384.Slices ![128, 0] S128x16384
  gather_S128x16384_S4096x1_S4096x16384_1_0_n_n_0_1_116384_wf : GatherDims.WF S128x16384 S4096x1 S4096x16384 [1] [0] [] [0] [] 1 ![1, 16384]
  scatter_S256x16384_S4096x1_S4096x16384_1_0_0_1_wf : ScatterDims.WF S256x16384 S4096x1 S4096x16384 [1] [0] [0] 1
  scatter_S256x16384_S1_S128x16384_01_n_0_0_wf : ScatterDims.WF S256x16384 S1 S128x16384 [0, 1] [] [0] 0

variable [Facts₀]

def gather_S128x16384_S4096x1_S4096x16384_1_0_n_n_0_1_116384 : GatherDims S128x16384 S4096x1 S4096x16384 where
  offsetDims := [1]
  collapsedSliceDims := [0]
  operandBatchingDims := []
  startIndicesBatchingDims := []
  startIndexMap := [0]
  indexVectorDim := 1
  sliceSizes := ![1, 16384]
  wf := gather_S128x16384_S4096x1_S4096x16384_1_0_n_n_0_1_116384_wf
def scatter_S256x16384_S4096x1_S4096x16384_1_0_0_1 : ScatterDims S256x16384 S4096x1 S4096x16384 where
  updateWindowDims := [1]
  insertedWindowDims := [0]
  scatterDimsToOperandDims := [0]
  indexVectorDim := 1
  wf := scatter_S256x16384_S4096x1_S4096x16384_1_0_0_1_wf
def scatter_S256x16384_S1_S128x16384_01_n_0_0 : ScatterDims S256x16384 S1 S128x16384 where
  updateWindowDims := [0, 1]
  insertedWindowDims := []
  scatterDimsToOperandDims := [0]
  indexVectorDim := 0
  wf := scatter_S256x16384_S1_S128x16384_01_n_0_0_wf

class Facts : Prop extends Facts₀ where

variable [Facts]
-- ==== Proof.PreFacts.lean ====
/-
  What the precondition says, element by element. The precondition is one boolean computed from the six
  arguments: a conjunction of "every entry of this float array has absolute value below +∞" for the four
  float arrays, and of "every entry lies in the index range" for the two integer arrays — the edge sources
  in [0, 128) (rows of the stacked feature table) and the edge destinations in [0, 256) (node slots).
  Read back: every float entry is a real number, and every integer entry, read as a signed integer, lies
  in its range.
-/
import proofs.«404425_j16295105921343_3_alg».proof.Pre_finite_inputs
import Idealize.ShloMosaic.Lib.ReduceAll
import Idealize.ShloMosaic.Lib.StableHlo.Predicate
import Idealize.ShloMosaic.Lib.ValueIdx

noncomputable section

namespace Cert.Bridge.PreFacts

open Idealize.ShloMosaic Cert.Pre_finite_inputs

/-- The scalar shape has no axis, hence exactly one index: a reduction over all axes lands on it. -/
instance subsingleton_scalar_idx : Subsingleton S_.Idx := ⟨fun _ _ => funext fun d => d.elim0⟩

/-- The pattern 0x7F800000 is the single-precision +∞. -/
theorem inf_pattern : Ideal.ofBits .f32 0x7F800000#32 = (⊤ : EReal) := by
  simp [Ideal.ofBits, Ideal.ieee]

/-- An extended real whose absolute value max x (-x) lies strictly below +∞ is neither infinity: it is a real. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One entry of a float array: the comparison |x| < +∞ came out true, so x is a real number. -/
theorem real_of_cmp (x : Ideal .f32)
    (h : FloatOps.cmpf (F := Ideal) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [inf_pattern] at h'
  simp only [Ideal.cmp, StableHlo.Predicate.ofBool_eq_one_iff, decide_eq_true_eq] at h'
  exact real_of_abs_lt_top x h'

/-- One entry of an integer array: both signed comparisons 0 ≤ v and v < n came out true. -/
theorem range_of_cmp (v n : BitVec 32)
    (h : IntOp.andi (IntOp.cmpi .sge v 0#32) (IntOp.cmpi .slt v n) = 1#1) : 0 ≤ v.toInt ∧ v.toInt < n.toInt := by
  obtain ⟨h0, hn⟩ := IntOp.andi_eq_one.1 h
  have h0' := IntOp.cmpi_sge.1 h0
  rw [show (0#32 : BitVec 32).toInt = 0 from by decide] at h0'
  exact ⟨h0', IntOp.cmpi_slt.1 hn⟩

variable [Cert.Pre_finite_inputs.Facts]

theorem facts_of_pre (loss prev : FVec Ideal S16384 .f32) (params : FVec Ideal S126x16384 .f32)
    (w : FVec Ideal S4096 .f32) (src dst : IVec S4096 32)
    (h : Cert.Pre_finite_inputs.fn (F := Ideal) loss prev params w src dst = fun _ => 1#1) :
    (∀ i, ∃ r : ℝ, loss i = (r : EReal)) ∧ (∀ i, ∃ r : ℝ, prev i = (r : EReal))
    ∧ (∀ i, ∃ r : ℝ, params i = (r : EReal)) ∧ (∀ i, ∃ r : ℝ, w i = (r : EReal))
    ∧ (∀ i, 0 ≤ (src i).toInt ∧ (src i).toInt < 128)
    ∧ (∀ i, 0 ≤ (dst i).toInt ∧ (dst i).toInt < 256) := by
  -- the one boolean, with its chain of operations laid open: a conjunction of six "all entries" tests
  have e := congrFun h ValueIdx.ix0
  dsimp only [fn, fn_part1] at e
  obtain ⟨e, hdst⟩ := IntOp.andi_eq_one.1 e
  obtain ⟨e, hsrc⟩ := IntOp.andi_eq_one.1 e
  obtain ⟨e, hw⟩ := IntOp.andi_eq_one.1 e
  obtain ⟨e, hparams⟩ := IntOp.andi_eq_one.1 e
  obtain ⟨hloss, hprev⟩ := IntOp.andi_eq_one.1 e
  refine ⟨fun i => ?_, fun i => ?_, fun i => ?_, fun i => ?_, fun i => ?_, fun i => ?_⟩
  · exact real_of_cmp (loss i) (Host.reduce_andi_all _ _ _ _ _ hloss i)
  · exact real_of_cmp (prev i) (Host.reduce_andi_all _ _ _ _ _ hprev i)
  · exact real_of_cmp (params i) (Host.reduce_andi_all _ _ _ _ _ hparams i)
  · exact real_of_cmp (w i) (Host.reduce_andi_all _ _ _ _ _ hw i)
  · exact range_of_cmp (src i) 128#32 (Host.reduce_andi_all _ _ _ _ _ hsrc i)
  · exact range_of_cmp (dst i) 256#32 (Host.reduce_andi_all _ _ _ _ _ hdst i)

end Cert.Bridge.PreFacts

end
-- ==== Proof.Spec.lean ====
/-
  The common value of the two programs, as one function of the six argument arrays.

  The 128 feature rows are the loss (row 0), the previous loss (row 1) and the 126 parameter rows (rows 2 … 127),
  each of 16384 columns. Every one of the 4096 edges carries a weight, a source (a feature row) and a destination
  (a node slot among 256). Slot `r` receives, column by column, the sum over the edges into `r` of the source's
  feature row times the edge's weight; the programs return the slots 128 … 255.

  Two arrangements of that sum appear. Edge by edge (`G`): the sum over the edges `e` with destination `128 + n`
  of `feature (source e) · weight e`. Feature by feature: first the weight sum `adj r s` of all edges from feature
  `s` to slot `r`, then the sum over the 128 features of `adj (128 + n) s · feature s`. They agree when every entry
  is a real number and every source is one of the 128 rows (the law is proved in its own module).
-/
import Idealize.ShloMosaic.PureOps.Ideal
import Idealize.ShloMosaic.Lib.ValueIdx

noncomputable section

namespace Cert.Bridge

open Idealize.ShloMosaic Idealize.ShloMosaic.ValueIdx

/-- Feature row `s` at column `d`: the loss for `s = 0`, the previous loss for `s = 1`, parameter row `s - 2` for
    `2 ≤ s < 128`; zero for a row number beyond the table (no in-range source names one). -/
def featN (loss prev : (⟨1, ![16384]⟩ : Shape).Idx → EReal) (params : (⟨2, ![126, 16384]⟩ : Shape).Idx → EReal)
    (s : ℕ) (d : Fin 16384) : EReal :=
  if s = 0 then loss (ix1 d) else if s = 1 then prev (ix1 d)
  else if h : s - 2 < 126 then params (ix2 ⟨s - 2, h⟩ d) else 0

/-- The weight sum of the edges from feature `s` to slot `r` (sources and destinations read as signed integers). -/
def adj (w : (⟨1, ![4096]⟩ : Shape).Idx → EReal) (src dst : (⟨1, ![4096]⟩ : Shape).Idx → BitVec 32) (r s : ℕ) : EReal :=
  ∑ e : Fin 4096, if (dst (ix1 e)).toInt = (r : ℤ) ∧ (src (ix1 e)).toInt = (s : ℤ) then w (ix1 e) else 0

/-- Slot `128 + n` at column `d`, edge by edge: the sum over the edges into that slot of the source's feature row
    times the edge's weight. -/
def Gc (loss prev : (⟨1, ![16384]⟩ : Shape).Idx → EReal) (params : (⟨2, ![126, 16384]⟩ : Shape).Idx → EReal)
    (w : (⟨1, ![4096]⟩ : Shape).Idx → EReal) (src dst : (⟨1, ![4096]⟩ : Shape).Idx → BitVec 32)
    (n : Fin 128) (d : Fin 16384) : EReal :=
  ∑ e : Fin 4096, if (dst (ix1 e)).toInt = (128 + n.val : ℤ)
    then featN loss prev params (src (ix1 e)).toInt.toNat d * w (ix1 e) else 0

/-- The returned array, slots 128 … 255 by 16384 columns, index by index. -/
def G (loss prev : (⟨1, ![16384]⟩ : Shape).Idx → EReal) (params : (⟨2, ![126, 16384]⟩ : Shape).Idx → EReal)
    (w : (⟨1, ![4096]⟩ : Shape).Idx → EReal) (src dst : (⟨1, ![4096]⟩ : Shape).Idx → BitVec 32) :
    (⟨2, ![128, 16384]⟩ : Shape).Idx → EReal :=
  fun i => Gc loss prev params w src dst ⟨(i 0).val, (i 0).isLt⟩ ⟨(i 1).val, (i 1).isLt⟩

theorem G_ix2 (loss prev : (⟨1, ![16384]⟩ : Shape).Idx → EReal) (params : (⟨2, ![126, 16384]⟩ : Shape).Idx → EReal)
    (w : (⟨1, ![4096]⟩ : Shape).Idx → EReal) (src dst : (⟨1, ![4096]⟩ : Shape).Idx → BitVec 32)
    (n : Fin 128) (d : Fin 16384) :
    G loss prev params w src dst (ix2 n d) = Gc loss prev params w src dst n d := rfl

end Cert.Bridge

end
-- ==== Proof.LibScatter.lean ====
/-
  Reading a host scatter at one element, for three patterns of dimension numbers.

  A scatter sends update element `j` to the operand element whose coordinate on each axis is a START (a component
  of the index vector the update reads, taken as a signed integer, not clamped) plus a WINDOW coordinate (the
  update's own coordinate on the matching window axis); an update whose target falls outside the operand is
  dropped. With an `add` body, at the ideal instance, an operand element ends as itself plus the sum of the
  updates that land on it.

  * A vector accumulated at scalar indices (`x.at[idx].add(v)`, one index per update, no window): update `e` lands
    on element `k` exactly when its index, read signed, is `k`. So element `k` ends as `x k + ∑ e, [idx e = k] · v e`.
  * Rows accumulated at scalar row indices (a segment sum: update row `e` is added to operand row `idx e`, the
    column kept): update `(e, c')` lands on `(r, c)` exactly when `idx e = r` and `c' = c`. So element `(r, c)` ends
    as `x (r, c) + ∑ e, [idx e = r] · v (e, c)`.
  * A block of rows written at one start row (`x.at[s : s + M].set(v)`): update `(a, c)` lands in row `s + a`. So a
    row outside `[s, s + M)` is met by no update.

  And, for any body and any dimension numbers: an operand element on which no update lands is unchanged.
-/
import Idealize.ShloMosaic.PureOps.Ideal
import Idealize.ShloMosaic.Lib.ValueIdx
import Idealize.ShloMosaic.Lib.ValueIdxRank1

noncomputable section

namespace LibScatter

open Idealize.ShloMosaic Idealize.ShloMosaic.ValueIdx

/-! ## An element no update lands on -/

/-- A scatter, whatever its body, leaves unchanged an operand element that is no update's target. -/
theorem scatter_apply_of_forall_ne {α : Type} {s si u : Shape} {w : ℕ} (d : ScatterDims s si u) (f : α → α → α)
    (x : s.Idx → α) (idx : IVec si w) (upd : u.Idx → α) (i : s.Idx)
    (h : ∀ j : u.Idx, d.resultIdx? j idx ≠ some i) : Host.scatter d f x idx upd i = x i := by
  unfold Host.scatter
  have key : ∀ (L : List (Fin u.numel)) (r : s.Idx → α), r i = x i →
      (L.foldl (fun r n =>
        match d.resultIdx? (u.rowMajor.symm n) idx with
        | some i0 => fun i' => if i' = i0 then f (r i0) (upd (u.rowMajor.symm n)) else r i'
        | none => r) r) i = x i := by
    intro L
    induction L with
    | nil => intro r hr; exact hr
    | cons n L ih =>
      intro r hr
      rw [List.foldl_cons]
      apply ih
      have hn := h (u.rowMajor.symm n)
      generalize d.resultIdx? (u.rowMajor.symm n) idx = o at hn ⊢
      cases o with
      | none => exact hr
      | some i0 =>
        have hne : i ≠ i0 := fun e => hn (by rw [e])
        show (if i = i0 then f (r i0) (upd (u.rowMajor.symm n)) else r i) = x i
        rw [if_neg hne]; exact hr
  exact key _ x rfl

/-! ## A vector accumulated at scalar indices -/

section Flat

variable {N E w : ℕ} (d : ScatterDims ⟨1, ![N]⟩ ⟨2, ![E, 1]⟩ ⟨1, ![E]⟩)

/-- The start of update `e` on the operand's one axis is its own index, read signed. -/
theorem start_flat
    (hd : d.updateWindowDims = [] ∧ d.insertedWindowDims = [0] ∧ d.scatterDimsToOperandDims = [0] ∧ d.indexVectorDim = 1)
    (e : Fin E) (idx : IVec ⟨2, ![E, 1]⟩ w) (a : Fin 1) :
    d.start (ix1 e) idx a = (idx (ix2 e (0 : Fin 1))).toInt := by
  obtain ⟨uw, iw, sd, iv, wf⟩ := d
  obtain ⟨rfl, rfl, rfl, rfl⟩ := hd
  have ha : a = 0 := Subsingleton.elim _ _
  subst ha
  unfold ScatterDims.start
  rw [dif_pos (List.mem_singleton.2 rfl)]
  refine congrArg BitVec.toInt (congrArg idx ?_)
  funext b
  match b with
  | ⟨0, _⟩ => rfl
  | ⟨1, _⟩ => rfl

/-- There is no window: the operand's one axis is inserted. -/
theorem window_flat
    (hd : d.updateWindowDims = [] ∧ d.insertedWindowDims = [0] ∧ d.scatterDimsToOperandDims = [0] ∧ d.indexVectorDim = 1)
    (e : Fin E) (a : Fin 1) : d.window (ix1 e) a = 0 := by
  obtain ⟨uw, iw, sd, iv, wf⟩ := d
  obtain ⟨rfl, rfl, rfl, rfl⟩ := hd
  have ha : a = 0 := Subsingleton.elim _ _
  subst ha
  unfold ScatterDims.window
  rw [dif_neg]
  intro h
  simp [ScatterDims.sKept, Shape.kept] at h

/-- Update `e` lands on element `i` exactly when its index, read signed, is `i`'s coordinate. -/
theorem resultIdx?_flat
    (hd : d.updateWindowDims = [] ∧ d.insertedWindowDims = [0] ∧ d.scatterDimsToOperandDims = [0] ∧ d.indexVectorDim = 1)
    (e : Fin E) (idx : IVec ⟨2, ![E, 1]⟩ w) (i : (⟨1, ![N]⟩ : Shape).Idx) :
    d.resultIdx? (ix1 e) idx = some i ↔ (idx (ix2 e (0 : Fin 1))).toInt = ((i 0).val : ℤ) := by
  have hs : ∀ a, d.start (ix1 e) idx a + (d.window (ix1 e) a : ℤ) = (idx (ix2 e (0 : Fin 1))).toInt := fun a => by
    rw [start_flat d hd, window_flat d hd, Nat.cast_zero, add_zero]
  unfold ScatterDims.resultIdx?
  constructor
  · intro h
    split at h
    · rename_i hc
      have h1 : (d.start (ix1 e) idx 0 + (d.window (ix1 e) 0 : ℤ)).toNat = (i 0).val :=
        congrArg Fin.val (congrFun (Option.some.inj h) 0)
      rw [← hs 0, ← h1, Int.toNat_of_nonneg (hc 0).1]
    · exact absurd h (by simp)
  · intro h
    have hc : ∀ a, 0 ≤ d.start (ix1 e) idx a + (d.window (ix1 e) a : ℤ)
        ∧ d.start (ix1 e) idx a + (d.window (ix1 e) a : ℤ) < ((⟨1, ![N]⟩ : Shape).size a : ℤ) := by
      intro a
      have ha : a = 0 := Subsingleton.elim _ _
      subst ha
      rw [hs 0, h]
      exact ⟨Int.natCast_nonneg _, Int.ofNat_lt.2 (i 0).isLt⟩
    rw [dif_pos hc]
    refine congrArg some (funext fun a => ?_)
    have ha : a = 0 := Subsingleton.elim _ _
    subst ha
    apply Fin.ext
    show (d.start (ix1 e) idx 0 + (d.window (ix1 e) 0 : ℤ)).toNat = (i 0).val
    rw [hs 0, h, Int.toNat_natCast]

/-- Element `k` of the accumulated vector: itself plus the updates whose index is `k`. -/
theorem hostScatterAdd_flat
    (hd : d.updateWindowDims = [] ∧ d.insertedWindowDims = [0] ∧ d.scatterDimsToOperandDims = [0] ∧ d.indexVectorDim = 1)
    (x : (⟨1, ![N]⟩ : Shape).Idx → EReal) (idx : IVec ⟨2, ![E, 1]⟩ w) (upd : (⟨1, ![E]⟩ : Shape).Idx → EReal) (k : Fin N) :
    Ideal.hostScatterAdd d x idx upd (ix1 k)
      = x (ix1 k) + ∑ e : Fin E, if (idx (ix2 e (0 : Fin 1))).toInt = (k.val : ℤ) then upd (ix1 e) else 0 := by
  unfold Ideal.hostScatterAdd
  refine congrArg (x (ix1 k) + ·) ?_
  rw [Finset.sum_filter, ← Equiv.sum_comp (idxEquiv1 (n := E)).symm]
  refine Finset.sum_congr rfl fun e _ => ?_
  exact if_congr (resultIdx?_flat d hd e idx (ix1 k)) rfl rfl

end Flat

/-! ## Rows accumulated at scalar row indices -/

section Rows

variable {N D E w : ℕ} (d : ScatterDims ⟨2, ![N, D]⟩ ⟨2, ![E, 1]⟩ ⟨2, ![E, D]⟩)

theorem start_rows_zero
    (hd : d.updateWindowDims = [1] ∧ d.insertedWindowDims = [0] ∧ d.scatterDimsToOperandDims = [0] ∧ d.indexVectorDim = 1)
    (e : Fin E) (c : Fin D) (idx : IVec ⟨2, ![E, 1]⟩ w) :
    d.start (ix2 e c) idx 0 = (idx (ix2 e (0 : Fin 1))).toInt := by
  obtain ⟨uw, iw, sd, iv, wf⟩ := d
  obtain ⟨rfl, rfl, rfl, rfl⟩ := hd
  unfold ScatterDims.start
  rw [dif_pos (List.mem_singleton.2 rfl)]
  refine congrArg BitVec.toInt (congrArg idx ?_)
  funext b
  match b with
  | ⟨0, _⟩ => rfl
  | ⟨1, _⟩ => rfl

theorem start_rows_one
    (hd : d.updateWindowDims = [1] ∧ d.insertedWindowDims = [0] ∧ d.scatterDimsToOperandDims = [0] ∧ d.indexVectorDim = 1)
    (e : Fin E) (c : Fin D) (idx : IVec ⟨2, ![E, 1]⟩ w) :
    d.start (ix2 e c) idx 1 = 0 := by
  obtain ⟨uw, iw, sd, iv, wf⟩ := d
  obtain ⟨rfl, rfl, rfl, rfl⟩ := hd
  unfold ScatterDims.start
  rw [dif_neg]
  intro h
  simp at h

theorem window_rows_zero
    (hd : d.updateWindowDims = [1] ∧ d.insertedWindowDims = [0] ∧ d.scatterDimsToOperandDims = [0] ∧ d.indexVectorDim = 1)
    (e : Fin E) (c : Fin D) : d.window (ix2 e c) 0 = 0 := by
  obtain ⟨uw, iw, sd, iv, wf⟩ := d
  obtain ⟨rfl, rfl, rfl, rfl⟩ := hd
  unfold ScatterDims.window
  rw [dif_neg]
  intro h
  simp [ScatterDims.sKept, Shape.kept] at h

theorem window_rows_one
    (hd : d.updateWindowDims = [1] ∧ d.insertedWindowDims = [0] ∧ d.scatterDimsToOperandDims = [0] ∧ d.indexVectorDim = 1)
    (e : Fin E) (c : Fin D) : d.window (ix2 e c) 1 = c.val := by
  obtain ⟨uw, iw, sd, iv, wf⟩ := d
  obtain ⟨rfl, rfl, rfl, rfl⟩ := hd
  unfold ScatterDims.window
  rw [dif_pos (by simp [ScatterDims.sKept, Shape.kept])]
  rfl

/-- Update `(e, c')` lands on element `i` exactly when row index `e`, read signed, is `i`'s row and `c'` is `i`'s column. -/
theorem resultIdx?_rows
    (hd : d.updateWindowDims = [1] ∧ d.insertedWindowDims = [0] ∧ d.scatterDimsToOperandDims = [0] ∧ d.indexVectorDim = 1)
    (e : Fin E) (c' : Fin D) (idx : IVec ⟨2, ![E, 1]⟩ w) (i : (⟨2, ![N, D]⟩ : Shape).Idx) :
    d.resultIdx? (ix2 e c') idx = some i
      ↔ (idx (ix2 e (0 : Fin 1))).toInt = ((i 0).val : ℤ) ∧ c'.val = (i 1).val := by
  have hs0 : d.start (ix2 e c') idx 0 + (d.window (ix2 e c') 0 : ℤ) = (idx (ix2 e (0 : Fin 1))).toInt := by
    rw [start_rows_zero d hd, window_rows_zero d hd, Nat.cast_zero, add_zero]
  have hs1 : d.start (ix2 e c') idx 1 + (d.window (ix2 e c') 1 : ℤ) = (c'.val : ℤ) := by
    rw [start_rows_one d hd, window_rows_one d hd, zero_add]
  unfold ScatterDims.resultIdx?
  constructor
  · intro h
    split at h
    · rename_i hc
      have h0 : (d.start (ix2 e c') idx 0 + (d.window (ix2 e c') 0 : ℤ)).toNat = (i 0).val :=
        congrArg Fin.val (congrFun (Option.some.inj h) 0)
      have h1 : (d.start (ix2 e c') idx 1 + (d.window (ix2 e c') 1 : ℤ)).toNat = (i 1).val :=
        congrArg Fin.val (congrFun (Option.some.inj h) 1)
      refine ⟨?_, ?_⟩
      · rw [← hs0, ← h0, Int.toNat_of_nonneg (hc 0).1]
      · rw [hs1, Int.toNat_natCast] at h1; exact h1
    · exact absurd h (by simp)
  · rintro ⟨h0, h1⟩
    have hc : ∀ a, 0 ≤ d.start (ix2 e c') idx a + (d.window (ix2 e c') a : ℤ)
        ∧ d.start (ix2 e c') idx a + (d.window (ix2 e c') a : ℤ) < ((⟨2, ![N, D]⟩ : Shape).size a : ℤ) := by
      intro a
      match a with
      | ⟨0, _⟩ =>
        show 0 ≤ d.start (ix2 e c') idx 0 + (d.window (ix2 e c') 0 : ℤ) ∧ d.start (ix2 e c') idx 0 + (d.window (ix2 e c') 0 : ℤ) < _
        rw [hs0, h0]
        exact ⟨Int.natCast_nonneg _, Int.ofNat_lt.2 (i 0).isLt⟩
      | ⟨1, _⟩ =>
        show 0 ≤ d.start (ix2 e c') idx 1 + (d.window (ix2 e c') 1 : ℤ) ∧ d.start (ix2 e c') idx 1 + (d.window (ix2 e c') 1 : ℤ) < _
        rw [hs1, h1]
        exact ⟨Int.natCast_nonneg _, Int.ofNat_lt.2 (i 1).isLt⟩
    rw [dif_pos hc]
    refine congrArg some (funext fun a => ?_)
    match a with
    | ⟨0, _⟩ =>
      apply Fin.ext
      show (d.start (ix2 e c') idx 0 + (d.window (ix2 e c') 0 : ℤ)).toNat = (i 0).val
      rw [hs0, h0, Int.toNat_natCast]
    | ⟨1, _⟩ =>
      apply Fin.ext
      show (d.start (ix2 e c') idx 1 + (d.window (ix2 e c') 1 : ℤ)).toNat = (i 1).val
      rw [hs1, Int.toNat_natCast, h1]

/-- Element `(r, c)` of the accumulated rows: itself plus column `c` of the update rows whose row index is `r`. -/
theorem hostScatterAdd_rows
    (hd : d.updateWindowDims = [1] ∧ d.insertedWindowDims = [0] ∧ d.scatterDimsToOperandDims = [0] ∧ d.indexVectorDim = 1)
    (x : (⟨2, ![N, D]⟩ : Shape).Idx → EReal) (idx : IVec ⟨2, ![E, 1]⟩ w) (upd : (⟨2, ![E, D]⟩ : Shape).Idx → EReal)
    (r : Fin N) (c : Fin D) :
    Ideal.hostScatterAdd d x idx upd (ix2 r c)
      = x (ix2 r c) + ∑ e : Fin E, if (idx (ix2 e (0 : Fin 1))).toInt = (r.val : ℤ) then upd (ix2 e c) else 0 := by
  unfold Ideal.hostScatterAdd
  refine congrArg (x (ix2 r c) + ·) ?_
  rw [Finset.sum_filter, sum_idx2]
  refine Finset.sum_congr rfl fun e _ => ?_
  rw [Finset.sum_congr rfl (fun c' _ => if_congr (resultIdx?_rows d hd e c' idx (ix2 r c)) rfl rfl)]
  show (∑ c' : Fin D, if (idx (ix2 e (0 : Fin 1))).toInt = (r.val : ℤ) ∧ c'.val = c.val then upd (ix2 e c') else 0) = _
  by_cases h : (idx (ix2 e (0 : Fin 1))).toInt = (r.val : ℤ)
  · rw [if_pos h, Finset.sum_eq_single c]
    · rw [if_pos ⟨h, rfl⟩]
    · intro c' _ hne
      rw [if_neg (fun hh => hne (Fin.ext hh.2))]
    · intro hc; exact absurd (Finset.mem_univ c) hc
  · rw [if_neg h]
    exact Finset.sum_eq_zero fun c' _ => if_neg (fun hh => h hh.1)

end Rows

/-! ## A block of rows written at one start row -/

section RowBlock

variable {N D M w : ℕ} (d : ScatterDims ⟨2, ![N, D]⟩ ⟨1, ![1]⟩ ⟨2, ![M, D]⟩)

/-- An update of a row block lands in the row that is the start row plus its own row. -/
theorem resultIdx?_rowBlock_row
    (hd : d.updateWindowDims = [0, 1] ∧ d.insertedWindowDims = [] ∧ d.scatterDimsToOperandDims = [0] ∧ d.indexVectorDim = 0)
    (j : (⟨2, ![M, D]⟩ : Shape).Idx) (idx : IVec ⟨1, ![1]⟩ w) (i : (⟨2, ![N, D]⟩ : Shape).Idx)
    (h : d.resultIdx? j idx = some i) :
    ((i 0).val : ℤ) = (idx (ix1 (0 : Fin 1))).toInt + ((j 0).val : ℤ) := by
  have hst : d.start j idx 0 = (idx (ix1 (0 : Fin 1))).toInt := by
    obtain ⟨uw, iw, sd, iv, wf⟩ := d
    obtain ⟨rfl, rfl, rfl, rfl⟩ := hd
    unfold ScatterDims.start
    rw [dif_pos (List.mem_singleton.2 rfl)]
    refine congrArg BitVec.toInt (congrArg idx ?_)
    funext b
    match b with
    | ⟨0, _⟩ => rfl
  have hwi : d.window j 0 = (j 0).val := by
    obtain ⟨uw, iw, sd, iv, wf⟩ := d
    obtain ⟨rfl, rfl, rfl, rfl⟩ := hd
    unfold ScatterDims.window
    rw [dif_pos (by simp [ScatterDims.sKept, Shape.kept])]
    rfl
  unfold ScatterDims.resultIdx? at h
  split at h
  · rename_i hc
    have h0 : (d.start j idx 0 + (d.window j 0 : ℤ)).toNat = (i 0).val :=
      congrArg Fin.val (congrFun (Option.some.inj h) 0)
    rw [← h0, Int.toNat_of_nonneg (hc 0).1, hst, hwi]
  · exact absurd h (by simp)

end RowBlock

end LibScatter

end
-- ==== Proof.Arith.lean ====
/-
  The flattened position of an edge, as an integer.

  An edge with source `s` in [0, 128) and destination `t` in [0, 256) is sent to position `t · 128 + s`. On 32-bit
  words the product and the sum do not wrap around (the value stays below 256 · 128 = 32768), the position is never
  negative, so the wrap of a negative position (adding 32768) is never taken, and the word read back as a signed
  integer is `t · 128 + s`. A position `T · 128 + S` with `0 ≤ S < 128` determines both `T` and `S`.
-/
import Idealize.ShloMosaic.Lib.Affine

namespace Cert.Bridge.Arith

open Idealize.ShloMosaic

theorem flatPos_toInt (s t : BitVec 32) (hs : 0 ≤ s.toInt ∧ s.toInt < 128) (ht : 0 ≤ t.toInt ∧ t.toInt < 256) :
    (Scalar.select (IntOp.cmpi .slt (IntOp.addi (IntOp.muli t 128#32) s) 0#32)
        (IntOp.addi (IntOp.addi (IntOp.muli t 128#32) s) 32768#32)
        (IntOp.addi (IntOp.muli t 128#32) s)).toInt = t.toInt * 128 + s.toInt := by
  have h128 : (128#32 : BitVec 32).toInt = 128 := by decide
  have h0 : (0#32 : BitVec 32).toInt = 0 := by decide
  -- the product stays below 256 · 128 = 32768: no wrap-around
  have hm : (IntOp.muli t 128#32).toInt = t.toInt * 128 := by
    rw [IntOp.muli, BitVec.toInt_mul, h128]
    exact Int.bmod_eq_of_le (by omega) (by omega)
  -- and so does the sum
  have hv : (IntOp.addi (IntOp.muli t 128#32) s).toInt = t.toInt * 128 + s.toInt := by
    rw [IntOp.addi, BitVec.toInt_add, hm]
    exact Int.bmod_eq_of_le (by omega) (by omega)
  -- the position is not negative: the comparison word is not 1 and the selection keeps the position itself
  have hc : ¬ IntOp.cmpi .slt (IntOp.addi (IntOp.muli t 128#32) s) 0#32 = 1 := by
    intro h
    have h' := IntOp.cmpi_slt.mp h
    rw [hv, h0] at h'
    omega
  rw [Scalar.select, if_neg hc, hv]

theorem flatPos_eq_iff (S T : ℤ) (hS : 0 ≤ S ∧ S < 128) (r s : ℕ) (hs : s < 128) :
    T * 128 + S = ((r * 128 + s : ℕ) : ℤ) ↔ T = (r : ℤ) ∧ S = (s : ℤ) := by
  push_cast
  constructor
  · intro h
    constructor <;> omega
  · rintro ⟨h₁, h₂⟩
    omega

end Cert.Bridge.Arith
-- ==== Proof.KernelHost.lean ====
/-
  What the kernel's launch finds in its four small operand arrays, element by element.

  Before the launch the program builds the weight-sum matrix on the host: every edge's pair (destination, source) is
  flattened to the position `destination · 128 + source` of a vector of 256 · 128 zeros and the edge's weight is added
  there; the vector is reshaped to 256 rows of 128, the rows 128 … 255 are cut out, and that block is split into its
  columns 2 … 127 (the operand multiplied against the parameter rows; its narrowing to a shorter float format is the
  identity at the ideal instance) and its columns 0, 1 (the operand applied to the loss and previous-loss rows). With
  every source in [0, 128) and every destination in [0, 256) the flattened position is computed without wrap-around
  and is never negative, and position `r · 128 + s` collects exactly the edges from feature `s` to slot `r`:
  entry `(n, s)` of the cut block is `adj (128 + n) s`. The loss and the previous loss are only reshaped to one row.
-/
import proofs.«404425_j16295105921343_3_alg».proof.Proof.Gen.KernelIdeal.Frame
import proofs.«404425_j16295105921343_3_alg».proof.Proof.Spec
import proofs.«404425_j16295105921343_3_alg».proof.Proof.LibScatter
import Idealize.ShloMosaic.Lib.StableHlo.Run
import Idealize.ShloMosaic.Lib.Pipeline.Value
import Idealize.ShloMosaic.Lib.ValueIdx
import proofs.«404425_j16295105921343_3_alg».proof.Proof.Arith
import Idealize.ShloMosaic.PureOps.Ideal.Laws

noncomputable section

namespace Cert.Bridge.KernelHost

open Idealize.ShloMosaic Idealize.ShloMosaic.TcCoe Idealize.SL.Sem Idealize.ShloMosaic.StableHlo
open Idealize.ShloMosaic.ValueIdx Cert.KernelIdeal Cert.KernelIdeal.Gen

variable (m : (ℓ : Loc nD τ sig) → Buf (Elt Ideal) ℓ)

/-! ## The six argument arrays of core `c` -/

abbrev lossA (c : Dev nD) : S16384.Idx → EReal := m ((c : Thread nD τ).loc main_arg0)
abbrev prevA (c : Dev nD) : S16384.Idx → EReal := m ((c : Thread nD τ).loc main_arg1)
abbrev paramsA (c : Dev nD) : S126x16384.Idx → EReal := m ((c : Thread nD τ).loc main_arg2)
abbrev wA (c : Dev nD) : S4096.Idx → EReal := m ((c : Thread nD τ).loc main_arg3)
abbrev srcA (c : Dev nD) : S4096.Idx → BitVec 32 := m ((c : Thread nD τ).loc main_arg4)
abbrev dstA (c : Dev nD) : S4096.Idx → BitVec 32 := m ((c : Thread nD τ).loc main_arg5)

/-! ## The host chain, as functions of the weights, sources and destinations -/

/-- The flattened position of every edge: destination times 128, plus source (32-bit word arithmetic). -/
def flatPos (src dst : IVec S4096 32) : IVec S4096 32 :=
  addi (muli dst (broadcastInDim S4096 ![] bcast_S_S4096 (constantI S_ 32 128#32))) src

/-- The position with a negative one wrapped by adding 256 · 128. -/
def normPos (src dst : IVec S4096 32) : IVec S4096 32 :=
  select (cmpi .slt (flatPos src dst) (broadcastInDim S4096 ![] bcast_S_S4096 (constantI S_ 32 0#32)))
    (addi (flatPos src dst) (broadcastInDim S4096 ![] bcast_S_S4096 (constantI S_ 32 32768#32))) (flatPos src dst)

/-- The vector of 256 · 128 zeros with every edge's weight added at its position. -/
def flatAdj (w : FVec Ideal S4096 .f32) (src dst : IVec S4096 32) : FVec Ideal S32768 .f32 :=
  Host.scatterAdd scatter_S32768_S4096x1_S4096_n_0_0_1
    (broadcastInDim S32768 ![] bcast_S_S32768 (constant (F := Ideal) S_ .f32 0x00000000#32))
    (broadcastInDim S4096x1 ![0] bcast_S4096_S4096x1_0 (normPos src dst)) w

/-- That vector as 256 rows of 128, cut to the rows 128 … 255. -/
def cutBlock (w : FVec Ideal S4096 .f32) (src dst : IVec S4096 32) : FVec Ideal S128x128 .f32 :=
  extractStridedSlice S128x128 ![128, 0] (shapeCast S256x128 (flatAdj w src dst) shapeCasts_S32768_S256x128)
    slices_S256x128_S128x128_128_0

/-- Under the ranges, edge `e`'s position read as a signed integer is `destination · 128 + source`. -/
theorem normPos_toInt (src dst : IVec S4096 32)
    (hs : ∀ i, 0 ≤ (src i).toInt ∧ (src i).toInt < 128) (hd : ∀ i, 0 ≤ (dst i).toInt ∧ (dst i).toInt < 256)
    (e : Fin 4096) :
    (normPos src dst (ix1 e)).toInt = (dst (ix1 e)).toInt * 128 + (src (ix1 e)).toInt :=
  Arith.flatPos_toInt (src (ix1 e)) (dst (ix1 e)) (hs _) (hd _)

/-- Position `k` of the accumulated vector: the weights of the edges whose position is `k`. -/
theorem flatAdj_apply (w : FVec Ideal S4096 .f32) (src dst : IVec S4096 32)
    (hs : ∀ i, 0 ≤ (src i).toInt ∧ (src i).toInt < 128) (hd : ∀ i, 0 ≤ (dst i).toInt ∧ (dst i).toInt < 256)
    (k : Fin 32768) :
    flatAdj w src dst (ix1 k)
      = ∑ e : Fin 4096, if (dst (ix1 e)).toInt * 128 + (src (ix1 e)).toInt = (k.val : ℤ) then w (ix1 e) else 0 := by
  unfold flatAdj
  refine (LibScatter.hostScatterAdd_flat scatter_S32768_S4096x1_S4096_n_0_0_1 ⟨rfl, rfl, rfl, rfl⟩ _ _ w k).trans ?_
  have h0 : broadcastInDim S32768 ![] bcast_S_S32768 (constant (F := Ideal) S_ .f32 0x00000000#32) (ix1 k) = (0 : EReal) :=
    Ideal.ofBits_zero_f32
  rw [h0, zero_add]
  refine Finset.sum_congr rfl fun e _ => ?_
  refine if_congr ?_ rfl rfl
  have hb : broadcastInDim S4096x1 ![0] bcast_S4096_S4096x1_0 (normPos src dst) (ix2 e (0 : Fin 1))
      = normPos src dst (ix1 e) :=
    broadcastInDim_apply _ bcast_S4096_S4096x1_0 (normPos src dst) (ix2 e (0 : Fin 1)) (ix1 e) (fun a => match a with
      | ⟨0, _⟩ => by show e.val = if (4096 : Nat) = 1 then 0 else e.val; rw [if_neg (by decide)])
  rw [hb, normPos_toInt src dst hs hd e]

/-- Entry `(n, s)` of the cut block is position `(128 + n) · 128 + s` of the accumulated vector. -/
theorem cutBlock_apply (w : FVec Ideal S4096 .f32) (src dst : IVec S4096 32) (n : Fin 128) (s : Fin 128) :
    cutBlock w src dst (ix2 n s)
      = flatAdj w src dst (ix1 (⟨(128 + n.val) * 128 + s.val, by have := n.isLt; have := s.isLt; omega⟩ : Fin 32768)) := by
  unfold cutBlock
  refine (extractStridedSlice_apply ![128, 0] _ slices_S256x128_S128x128_128_0 (ix2 n s)
    (ix2 (⟨128 + n.val, by have := n.isLt; omega⟩ : Fin 256) s) (fun a => match a with
      | ⟨0, _⟩ => rfl
      | ⟨1, _⟩ => by show s.val = 0 + s.val; omega)).trans ?_
  refine shapeCast_apply _ shapeCasts_S32768_S256x128 _ _ ?_
  rw [Shape.rowMajor_val_one, Shape.rowMajor_val_two]
  rfl

/-- Entry `(n, s)` of the cut block is the weight sum from feature `s` to slot `128 + n`. -/
theorem cutBlock_adj (w : FVec Ideal S4096 .f32) (src dst : IVec S4096 32)
    (hs : ∀ i, 0 ≤ (src i).toInt ∧ (src i).toInt < 128) (hd : ∀ i, 0 ≤ (dst i).toInt ∧ (dst i).toInt < 256)
    (n : Fin 128) (s : Fin 128) :
    cutBlock w src dst (ix2 n s) = adj w src dst (128 + n.val) s.val := by
  rw [cutBlock_apply, flatAdj_apply w src dst hs hd]
  unfold adj
  refine Finset.sum_congr rfl fun e _ => ?_
  refine if_congr ?_ rfl rfl
  exact Arith.flatPos_eq_iff _ _ (hs _) (128 + n.val) s.val s.isLt

/-! ## The operand arrays as the launch finds them -/

set_option maxHeartbeats 2000000 in
theorem V_w0_eq (c : Dev nD) :
    (V m c main_call0_v14 : S128x126.Idx → EReal)
      = truncf .bf16 (extractStridedSlice S128x126 ![0, 2] (cutBlock (wA m c) (srcA m c) (dstA m c))
          slices_S128x128_S128x126_0_2) bitsLt_bf16_f32 := by
  dsimp only [Gen.V, Gen.hostOps0]
  after_results
  rfl

set_option maxHeartbeats 2000000 in
theorem V_w1_eq (c : Dev nD) :
    (V m c main_call0_v15 : S128x2.Idx → EReal)
      = extractStridedSlice S128x2 ![0, 0] (cutBlock (wA m c) (srcA m c) (dstA m c)) slices_S128x128_S128x2_0_0 := by
  dsimp only [Gen.V, Gen.hostOps0]
  after_results
  rfl

theorem V_w2_eq (c : Dev nD) :
    (V m c main_call0_v16 : S1x16384.Idx → EReal) = shapeCast S1x16384 (lossA m c) shapeCasts_S16384_S1x16384 := by
  dsimp only [Gen.V, Gen.hostOps0]
  after_results
  rfl

theorem V_w3_eq (c : Dev nD) :
    (V m c main_call0_v17 : S1x16384.Idx → EReal) = shapeCast S1x16384 (prevA m c) shapeCasts_S16384_S1x16384 := by
  dsimp only [Gen.V, Gen.hostOps0]
  after_results
  rfl

/-- Operand 0 (columns 2 … 127 of the cut block) at `(n, p)`: the weight sum from feature `2 + p` to slot `128 + n`. -/
theorem V_w0_apply (c : Dev nD)
    (hs : ∀ i, 0 ≤ (srcA m c i).toInt ∧ (srcA m c i).toInt < 128)
    (hd : ∀ i, 0 ≤ (dstA m c i).toInt ∧ (dstA m c i).toInt < 256) (n : Fin 128) (p : Fin 126) :
    (V m c main_call0_v14 : S128x126.Idx → EReal) (ix2 n p)
      = adj (wA m c) (srcA m c) (dstA m c) (128 + n.val) (2 + p.val) := by
  rw [V_w0_eq]
  show extractStridedSlice S128x126 ![0, 2] (cutBlock (wA m c) (srcA m c) (dstA m c)) slices_S128x128_S128x126_0_2 (ix2 n p) = _
  refine (extractStridedSlice_apply ![0, 2] _ slices_S128x128_S128x126_0_2 (ix2 n p)
    (ix2 n (⟨2 + p.val, by have := p.isLt; omega⟩ : Fin 128)) (fun a => match a with
      | ⟨0, _⟩ => by show n.val = 0 + n.val; omega
      | ⟨1, _⟩ => rfl)).trans ?_
  exact cutBlock_adj (wA m c) (srcA m c) (dstA m c) hs hd n _

/-- Operand 1 (columns 0, 1 of the cut block), column 0: the weight sum from the loss row to slot `128 + n`. -/
theorem V_w1_apply0 (c : Dev nD)
    (hs : ∀ i, 0 ≤ (srcA m c i).toInt ∧ (srcA m c i).toInt < 128)
    (hd : ∀ i, 0 ≤ (dstA m c i).toInt ∧ (dstA m c i).toInt < 256) (n : Fin 128) :
    (V m c main_call0_v15 : S128x2.Idx → EReal) (ix2 n (0 : Fin 2))
      = adj (wA m c) (srcA m c) (dstA m c) (128 + n.val) 0 := by
  rw [V_w1_eq]
  refine (extractStridedSlice_apply ![0, 0] _ slices_S128x128_S128x2_0_0 (ix2 n (0 : Fin 2))
    (ix2 n (0 : Fin 128)) (fun a => match a with
      | ⟨0, _⟩ => by show n.val = 0 + n.val; omega
      | ⟨1, _⟩ => rfl)).trans ?_
  exact cutBlock_adj (wA m c) (srcA m c) (dstA m c) hs hd n 0

/-- Operand 1, column 1: the weight sum from the previous-loss row to slot `128 + n`. -/
theorem V_w1_apply1 (c : Dev nD)
    (hs : ∀ i, 0 ≤ (srcA m c i).toInt ∧ (srcA m c i).toInt < 128)
    (hd : ∀ i, 0 ≤ (dstA m c i).toInt ∧ (dstA m c i).toInt < 256) (n : Fin 128) :
    (V m c main_call0_v15 : S128x2.Idx → EReal) (ix2 n (1 : Fin 2))
      = adj (wA m c) (srcA m c) (dstA m c) (128 + n.val) 1 := by
  rw [V_w1_eq]
  refine (extractStridedSlice_apply ![0, 0] _ slices_S128x128_S128x2_0_0 (ix2 n (1 : Fin 2))
    (ix2 n (1 : Fin 128)) (fun a => match a with
      | ⟨0, _⟩ => by show n.val = 0 + n.val; omega
      | ⟨1, _⟩ => rfl)).trans ?_
  exact cutBlock_adj (wA m c) (srcA m c) (dstA m c) hs hd n 1

/-- Operand 2: the loss as one row. -/
theorem V_w2_apply (c : Dev nD) (d : Fin 16384) :
    (V m c main_call0_v16 : S1x16384.Idx → EReal) (ix2 (0 : Fin 1) d) = lossA m c (ix1 d) := by
  rw [V_w2_eq]
  refine shapeCast_apply _ shapeCasts_S16384_S1x16384 _ _ ?_
  rw [Shape.rowMajor_val_one, Shape.rowMajor_val_two]
  show d.val = 0 * 16384 + d.val
  omega

/-- Operand 3: the previous loss as one row. -/
theorem V_w3_apply (c : Dev nD) (d : Fin 16384) :
    (V m c main_call0_v17 : S1x16384.Idx → EReal) (ix2 (0 : Fin 1) d) = prevA m c (ix1 d) := by
  rw [V_w3_eq]
  refine shapeCast_apply _ shapeCasts_S16384_S1x16384 _ _ ?_
  rw [Shape.rowMajor_val_one, Shape.rowMajor_val_two]
  show d.val = 0 * 16384 + d.val
  omega

end Cert.Bridge.KernelHost

end
-- ==== Proof.KernelBody.lean ====
/-
  The kernel body's arithmetic at one entry of its output block. The body multiplies the [128, 126] block of
  edge-weight sums against the [126, 4096] block of parameter rows on the matrix unit (into a zero
  accumulator: at the ideal instance the exact sum over the 126 contracted rows, the format changes being
  the identity), and adds the two remaining feature rows as outer products: column 0 of the [128, 2] block
  times the loss row, column 1 times the previous-loss row.
-/
import proofs.«404425_j16295105921343_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.KernelBody

open Idealize.ShloMosaic Idealize.ShloMosaic.ValueIdx Cert.KernelIdeal Cert.KernelIdeal.Gen

/-- A `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The product's operand indices, axis by axis: at output entry `j` and contraction position `k` the left block
is read at row `j 0`, column `k`, and the right block at row `k`, column `j 1`. -/

theorem lhs_axis0 (j : S128x4096.Idx) (k : dot_S128x126_S126x4096_S128x4096_1_0_0_1_n_n.contr.Idx) :
    ((dot_S128x126_S126x4096_S128x4096_1_0_0_1_n_n.lhsIdx j k) 0).val = (j 0).val := rfl

theorem lhs_axis1 (j : S128x4096.Idx) (k : dot_S128x126_S126x4096_S128x4096_1_0_0_1_n_n.contr.Idx) :
    ((dot_S128x126_S126x4096_S128x4096_1_0_0_1_n_n.lhsIdx j k) 1).val = (k ⟨0, by decide⟩).val :=
  dot_S128x126_S126x4096_S128x4096_1_0_0_1_n_n.lhsIdx_val_of_single (cl := 1) rfl j k

theorem rhs_axis0 (j : S128x4096.Idx) (k : dot_S128x126_S126x4096_S128x4096_1_0_0_1_n_n.contr.Idx) :
    ((dot_S128x126_S126x4096_S128x4096_1_0_0_1_n_n.rhsIdx j k) 0).val = (k ⟨0, by decide⟩).val :=
  dot_S128x126_S126x4096_S128x4096_1_0_0_1_n_n.rhsIdx_val_of_single (cr := 0) rfl j k

theorem rhs_axis1 (j : S128x4096.Idx) (k : dot_S128x126_S126x4096_S128x4096_1_0_0_1_n_n.contr.Idx) :
    ((dot_S128x126_S126x4096_S128x4096_1_0_0_1_n_n.rhsIdx j k) 1).val = (j 1).val := rfl

/-- The block product into the zero accumulator, read at entry `(n, q)`: the sum over the 126 contracted
    positions of the left block's row `n` against the right block's column `q`. -/
theorem dot_apply (A : FVec Ideal S128x126 .bf16) (B : FVec Ideal S126x4096 .bf16) (n : Fin 128) (q : Fin 4096) :
    matmul dot_S128x126_S126x4096_S128x4096_1_0_0_1_n_n none A B (constant (F := Ideal) S128x4096 .f32 0x00000000#32) (ix2 n q)
      = ∑ p : Fin 126, A (ix2 n p) * B (ix2 p q) := by
  refine (Ideal.matmul_constant_zero_apply dot_S128x126_S126x4096_S128x4096_1_0_0_1_n_n none A B (ix2 n q)).trans ?_
  refine (Equiv.sum_comp (contrEquiv1 dot_S128x126_S126x4096_S128x4096_1_0_0_1_n_n 126 rfl rfl).symm _).symm.trans ?_
  refine Finset.sum_congr rfl fun p _ => ?_
  have hk : (((contrEquiv1 dot_S128x126_S126x4096_S128x4096_1_0_0_1_n_n 126 rfl rfl).symm p) ⟨0, by decide⟩ : ℕ) = p.val :=
    contrEquiv1_symm_val dot_S128x126_S126x4096_S128x4096_1_0_0_1_n_n 126 rfl rfl p
  have hl : dot_S128x126_S126x4096_S128x4096_1_0_0_1_n_n.lhsIdx (ix2 n q) ((contrEquiv1 dot_S128x126_S126x4096_S128x4096_1_0_0_1_n_n 126 rfl rfl).symm p) = ix2 n p :=
    Shape.idx_ext₂ (lhs_axis0 _ _) ((lhs_axis1 _ _).trans hk)
  have hr : dot_S128x126_S126x4096_S128x4096_1_0_0_1_n_n.rhsIdx (ix2 n q) ((contrEquiv1 dot_S128x126_S126x4096_S128x4096_1_0_0_1_n_n 126 rfl rfl).symm p) = ix2 p q :=
    Shape.idx_ext₂ ((rhs_axis0 _ _).trans hk) (rhs_axis1 _ _)
  rw [hl, hr]

theorem pay_apply (v0 : FVec Ideal S128x126 .bf16) (v2 : FVec Ideal S126x4096 .f32)
    (v5 v7 : FVec Ideal S128x1 .f32) (v9 v15 : FVec Ideal S1x4096 .f32) (n : Fin 128) (q : Fin 4096) :
    k0_pay1 (F := Ideal) v0 v2 v5 v7 v9 v15 (ix2 n q)
      = (∑ p : Fin 126, v0 (ix2 n p) * v2 (ix2 p q))
        + v5 (ix2 n (0 : Fin 1)) * v9 (ix2 (0 : Fin 1) q)
        + v7 (ix2 n (0 : Fin 1)) * v15 (ix2 (0 : Fin 1) q) := by
  -- the product: the casts of its operands are the identity, as is the narrowing of the right block
  have hm : matmul dot_S128x126_S126x4096_S128x4096_1_0_0_1_n_n none (shapeCast S128x126 v0 shapeCasts_S128x126_S128x126)
      (truncf .bf16 v2 bitsLt_bf16_f32) (constant (F := Ideal) S128x4096 .f32 0x00000000#32) (ix2 n q)
      = ∑ p : Fin 126, v0 (ix2 n p) * v2 (ix2 p q) := by
    refine (dot_apply _ _ n q).trans ?_
    rw [shapeCast_self]
    rfl
  -- the two columns, each laid along every column of the block
  have h5 : broadcastTo S128x4096 (shapeCast S128x1 v5 shapeCasts_S128x1_S128x1) broadcasts_S128x1_S128x4096 (ix2 n q)
      = v5 (ix2 n (0 : Fin 1)) := by
    refine (broadcastTo_a1_ab_apply _ _ n q).trans ?_
    rw [shapeCast_self]
  have h7 : broadcastTo S128x4096 (shapeCast S128x1 v7 shapeCasts_S128x1_S128x1) broadcasts_S128x1_S128x4096 (ix2 n q)
      = v7 (ix2 n (0 : Fin 1)) := by
    refine (broadcastTo_a1_ab_apply _ _ n q).trans ?_
    rw [shapeCast_self]
  -- the two rows, each laid along every row of the block
  have h9 : broadcastTo S128x4096 (shapeCast S1x4096 v9 shapeCasts_S1x4096_S1x4096) broadcasts_S1x4096_S128x4096 (ix2 n q)
      = v9 (ix2 (0 : Fin 1) q) := by
    refine (broadcastTo_1b_ab_apply _ _ n q).trans ?_
    rw [shapeCast_self]
  have h15 : broadcastTo S128x4096 (shapeCast S1x4096 v15 shapeCasts_S1x4096_S1x4096) broadcasts_S1x4096_S128x4096 (ix2 n q)
      = v15 (ix2 (0 : Fin 1) q) := by
    refine (broadcastTo_1b_ab_apply _ _ n q).trans ?_
    rw [shapeCast_self]
  unfold k0_pay1
  exact congrArg₂ (· + ·) (congrArg₂ (· + ·) hm (congrArg₂ (· * ·) h5 h9)) (congrArg₂ (· * ·) h7 h15)

end Cert.Bridge.KernelBody

end
-- ==== Proof.Law.lean ====
/-
  The law that joins the two arrangements of the edge sum. For slot `128 + n` and column `d`:

      ∑ over the 128 features s of (adj (128 + n) s) · feature s d   =   ∑ over the edges e into slot 128 + n of feature (source e) d · weight e.

  Left to right: `adj r s` is itself a sum over edges (those from `s` to `r`), so the left side is a double sum over
  features and edges of `[dst e = r ∧ src e = s] · weight e · feature s d`; exchanging the two sums, each edge into `r`
  contributes for exactly one feature, its own source, because every source is one of the 128 rows. Multiplying a
  sum through by a factor is distributivity, which on the extended reals fails at infinities: it is used here only on
  real numbers, which is where the finiteness of the four float arrays enters. The 128 features are split as
  the kernel splits them: the 126 parameter rows (a sum), then the loss row, then the previous-loss row.
-/
import proofs.«404425_j16295105921343_3_alg».proof.Proof.Spec
import Mathlib.Data.EReal.Basic
import Mathlib.Algebra.BigOperators.Ring.Finset
import Mathlib.Algebra.BigOperators.Fin

noncomputable section

namespace Cert.Bridge

open Idealize.ShloMosaic Idealize.ShloMosaic.ValueIdx

/-! ## The identity on real numbers -/

/-- A sum over the 128 rows, split as the rows `2 + p` for `p < 126`, then row 0, then row 1. -/
theorem sum_rows_split (g : ℕ → ℝ) :
    ∑ s : Fin 128, g s.val = (∑ p : Fin 126, g (2 + p.val)) + g 0 + g 1 := by
  rw [Fin.sum_univ_eq_sum_range g 128, Fin.sum_univ_eq_sum_range (fun p => g (2 + p)) 126,
    Finset.sum_range_succ' g 127, Finset.sum_range_succ' (fun i => g (i + 1)) 126]
  have h : ∀ i : ℕ, g (i + 1 + 1) = g (2 + i) := fun i => by rw [show i + 1 + 1 = 2 + i by omega]
  simp only [h, Nat.zero_add]
  ring

/-- One edge's share, summed over the 128 rows: an edge into slot `R` whose source is one of the rows contributes the
    entry of its own source row and nothing else; an edge into another slot contributes nothing. -/
theorem edge_rows (W : ℝ) (S D R : ℤ) (hS : 0 ≤ S ∧ S < 128) (f : ℕ → ℝ) :
    ∑ s : Fin 128, (if D = R ∧ S = (s.val : ℤ) then W else 0) * f s.val
      = if D = R then f S.toNat * W else 0 := by
  by_cases hD : D = R
  · have hlt : S.toNat < 128 := by omega
    rw [if_pos hD, Finset.sum_eq_single (⟨S.toNat, hlt⟩ : Fin 128)]
    · have : S = ((S.toNat : ℕ) : ℤ) := (Int.toNat_of_nonneg hS.1).symm
      rw [if_pos ⟨hD, this⟩, mul_comm]
    · intro s _ hne
      have : ¬ (D = R ∧ S = (s.val : ℤ)) := by
        rintro ⟨_, h⟩
        apply hne
        apply Fin.ext
        show s.val = S.toNat
        omega
      rw [if_neg this, zero_mul]
    · intro h; exact absurd (Finset.mem_univ _) h
  · have : ∀ s : Fin 128, ¬ (D = R ∧ S = (s.val : ℤ)) := fun s h => hD h.1
    simp only [this, if_false, zero_mul, Finset.sum_const_zero, if_neg hD]

/-- The law on real numbers, over any real weights `W`, integer sources `S` within the 128 rows, integer destinations
    `D`, a slot `R` and a feature column `f`: the feature-by-feature sum, with the weight sums inside, is the
    edge-by-edge sum. The inner weight sum is multiplied through (distributivity in ℝ), the two sums are exchanged,
    and each edge's share over the rows collapses to its own source row. -/
theorem real_law (W : Fin 4096 → ℝ) (S D : Fin 4096 → ℤ) (hS : ∀ e, 0 ≤ S e ∧ S e < 128) (R : ℤ) (f : ℕ → ℝ) :
    (∑ p : Fin 126, (∑ e : Fin 4096, if D e = R ∧ S e = ((2 + p.val : ℕ) : ℤ) then W e else 0) * f (2 + p.val))
      + (∑ e : Fin 4096, if D e = R ∧ S e = ((0 : ℕ) : ℤ) then W e else 0) * f 0
      + (∑ e : Fin 4096, if D e = R ∧ S e = ((1 : ℕ) : ℤ) then W e else 0) * f 1
    = ∑ e : Fin 4096, if D e = R then f (S e).toNat * W e else 0 := by
  rw [← sum_rows_split (fun s => (∑ e : Fin 4096, if D e = R ∧ S e = ((s : ℕ) : ℤ) then W e else 0) * f s)]
  simp only [Finset.sum_mul]
  rw [Finset.sum_comm]
  exact Finset.sum_congr rfl fun e _ => edge_rows (W e) (S e) (D e) R (hS e) f

/-! ## From the extended reals to the reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A weight sum over real weights is the coercion of the real weight sum. -/
theorem adj_coe (wr : (⟨1, ![4096]⟩ : Shape).Idx → ℝ) (src dst : (⟨1, ![4096]⟩ : Shape).Idx → BitVec 32) (r s : ℕ) :
    adj (fun i => ((wr i : ℝ) : EReal)) src dst r s
      = ((∑ e : Fin 4096, if (dst (ix1 e)).toInt = (r : ℤ) ∧ (src (ix1 e)).toInt = (s : ℤ)
          then wr (ix1 e) else 0 : ℝ) : EReal) := by
  unfold adj
  rw [coe_sum]
  refine Finset.sum_congr rfl fun e _ => ?_
  split_ifs <;> rfl

/-- Over real arrays the feature column at `d` is the coercion of a real column `f`, whose rows 0, 1 and `2 + p` are
    the loss, the previous loss and parameter row `p`. -/
theorem featN_real (lr pr : (⟨1, ![16384]⟩ : Shape).Idx → ℝ) (par : (⟨2, ![126, 16384]⟩ : Shape).Idx → ℝ)
    (d : Fin 16384) :
    ∃ f : ℕ → ℝ,
      (∀ s, featN (fun i => ((lr i : ℝ) : EReal)) (fun i => ((pr i : ℝ) : EReal))
          (fun i => ((par i : ℝ) : EReal)) s d = ((f s : ℝ) : EReal))
      ∧ f 0 = lr (ix1 d) ∧ f 1 = pr (ix1 d) ∧ ∀ p : Fin 126, f (2 + p.val) = par (ix2 p d) := by
  refine ⟨fun s => if s = 0 then lr (ix1 d) else if s = 1 then pr (ix1 d)
      else if h : s - 2 < 126 then par (ix2 ⟨s - 2, h⟩ d) else 0, ?_, ?_, ?_, ?_⟩
  · intro s
    dsimp only [featN]
    split_ifs <;> rfl
  · simp
  · simp
  · intro p
    have h0 : 2 + p.val ≠ 0 := by omega
    have h1 : 2 + p.val ≠ 1 := by omega
    have h2 : 2 + p.val - 2 < 126 := by have := p.isLt; omega
    have h3 : (⟨2 + p.val - 2, h2⟩ : Fin 126) = p := Fin.ext (by show 2 + p.val - 2 = p.val; omega)
    simp only [if_neg h0, if_neg h1, dif_pos h2, h3]

/-! ## The law -/

theorem law (loss prev : (⟨1, ![16384]⟩ : Shape).Idx → EReal) (params : (⟨2, ![126, 16384]⟩ : Shape).Idx → EReal)
    (w : (⟨1, ![4096]⟩ : Shape).Idx → EReal) (src dst : (⟨1, ![4096]⟩ : Shape).Idx → BitVec 32)
    (hl : ∀ i, ∃ r : ℝ, loss i = (r : EReal)) (hp : ∀ i, ∃ r : ℝ, prev i = (r : EReal))
    (hpa : ∀ i, ∃ r : ℝ, params i = (r : EReal)) (hw : ∀ i, ∃ r : ℝ, w i = (r : EReal))
    (hs : ∀ i, 0 ≤ (src i).toInt ∧ (src i).toInt < 128)
    (n : Fin 128) (d : Fin 16384) :
    (∑ p : Fin 126, adj w src dst (128 + n.val) (2 + p.val) * params (ix2 p d))
      + adj w src dst (128 + n.val) 0 * loss (ix1 d)
      + adj w src dst (128 + n.val) 1 * prev (ix1 d)
    = Gc loss prev params w src dst n d := by
  -- every entry of the four float arrays is a real number: name the real arrays
  choose lr hlr using hl
  choose pr hpr using hp
  choose par hpar using hpa
  choose wr hwr using hw
  obtain rfl : loss = fun i => ((lr i : ℝ) : EReal) := funext hlr
  obtain rfl : prev = fun i => ((pr i : ℝ) : EReal) := funext hpr
  obtain rfl : params = fun i => ((par i : ℝ) : EReal) := funext hpar
  obtain rfl : w = fun i => ((wr i : ℝ) : EReal) := funext hwr
  obtain ⟨f, hf, hf0, hf1, hf2⟩ := featN_real lr pr par d
  have hR : ((128 + n.val : ℕ) : ℤ) = (128 : ℤ) + (n.val : ℤ) := by push_cast; rfl
  -- the edge-by-edge side is the coercion of the real edge-by-edge sum
  have hG : Gc (fun i => ((lr i : ℝ) : EReal)) (fun i => ((pr i : ℝ) : EReal)) (fun i => ((par i : ℝ) : EReal))
        (fun i => ((wr i : ℝ) : EReal)) src dst n d
      = ((∑ e : Fin 4096, if (dst (ix1 e)).toInt = (128 : ℤ) + (n.val : ℤ)
          then f (src (ix1 e)).toInt.toNat * wr (ix1 e) else 0 : ℝ) : EReal) := by
    unfold Gc
    rw [coe_sum]
    refine Finset.sum_congr rfl fun e _ => ?_
    split_ifs
    · rw [hf, EReal.coe_mul]
    · rfl
  -- the law on the reals, at the real arrays
  have key := real_law (fun e => wr (ix1 e)) (fun e => (src (ix1 e)).toInt) (fun e => (dst (ix1 e)).toInt)
    (fun e => hs (ix1 e)) ((128 : ℤ) + (n.val : ℤ)) f
  rw [hG, ← key]
  -- the feature-by-feature side is the coercion of the real one, term by term
  simp only [adj_coe, hR, EReal.coe_add, coe_sum, EReal.coe_mul, hf0, hf1, hf2]

end Cert.Bridge

end
-- ==== Proof.KernelValue.lean ====
/-
  The kernel's result array is the common function `G` of the six argument arrays.

  The launch runs the body at four grid points; point `t` works on the columns `4096 · t … 4096 · t + 4095` of the
  loss row, the previous-loss row and the parameter rows, with the two weight-sum operands whole at every point,
  and writes back the `[128, 4096]` block of those columns. Entry `(n, q)` of that block is the body's arithmetic on
  its operand blocks: the sum over the 126 parameter rows of the weight sum times the parameter entry, plus the
  loss and previous-loss terms — which is the feature-by-feature arrangement at slot `128 + n`, column
  `4096 · t + q`, and so, by the law, the edge-by-edge sum `G` there. The four blocks cover the array.
-/
import proofs.«404425_j16295105921343_3_alg».proof.Proof.Gen.KernelIdeal.Value
import proofs.«404425_j16295105921343_3_alg».proof.Proof.KernelHost
import proofs.«404425_j16295105921343_3_alg».proof.Proof.KernelBody
import proofs.«404425_j16295105921343_3_alg».proof.Proof.Law
import Idealize.ShloMosaic.Lib.Pipeline.Value
import Idealize.ShloMosaic.Lib.ValueIdx

noncomputable section

namespace Cert.Bridge.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.Bridge.KernelHost

variable (m : (ℓ : Loc nD τ sig) → Buf (Elt Ideal) ℓ)

/-- The zero offsets of a whole-buffer access, as the constant function. -/
theorem zero_offsets : (![0, 0] : Fin 2 → Nat) = fun _ => 0 := funext fun a => by fin_cases a <;> rfl

/-- The printed index maps, decided over the four grid points: the two weight-sum operands stay at block (0, 0);
    the loss row, the previous-loss row, the parameter rows and the result move along the columns, block (0, t). -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- The first weight-sum operand's block at any point is the whole operand. -/
theorem blk0_apply (c : Dev nD) (t : Fin cfg0.N) (x k : S128x126.Idx)
    (hk0 : (k 0).val = (x 0).val) (hk1 : (k 1).val = (x 1).val) :
    (iblk m c 0 t : Vec Ideal S128x126 .bf16) x = (V m c main_call0_v14 : S128x126.Idx → EReal) k := by
  obtain ⟨e0, e1, -⟩ := index_facts t
  show (V m c main_call0_v14 : S128x126.Idx → EReal) (((cfg0.win 0).blk t).view.emb x) = _
  refine congrArg _ (funext fun a => Fin.ext ?_)
  match a with
  | ⟨0, _⟩ => show win0_0.index t (0 : Fin 2) * 128 + 1 * (x 0).val = (k 0).val; omega
  | ⟨1, _⟩ => show win0_0.index t (1 : Fin 2) * 126 + 1 * (x 1).val = (k 1).val; omega

/-- An index of the result array is in point `t`'s block iff each coordinate is in the block's range on its axis. -/
theorem mem_blk (t : Fin cfg0.N) (i : S128x16384.Idx) :
    i ∈ ((cfg0.win 5).blk t).view.set ↔ ∀ a : Fin 2, win0_5.index t a * S128x4096.size a ≤ (i a).val
      ∧ (i a).val < win0_5.index t a * S128x4096.size a + S128x4096.size a := by
  show i ∈ ((View.whole main_v0).slice (win0_5.rect t)).set ↔ _
  rw [View.set_slice_whole, Rect.mem_set_unit]
  exact Iff.rfl

/-- The second weight-sum operand's block at any point is the whole operand; the body reads its column 0 … -/
theorem blk1_col0_apply (c : Dev nD) (t : Fin cfg0.N) (x : S128x1.Idx) (k : S128x2.Idx)
    (hk0 : (k 0).val = (x 0).val) (hk1 : (k 1).val = 0) :
    View.ld (iblk m c 1 t : Vec Ideal S128x2 .f32) r0_2 x = (V m c main_call0_v15 : S128x2.Idx → EReal) k := by
  obtain ⟨-, -, e0, e1, -⟩ := index_facts t
  show (V m c main_call0_v15 : S128x2.Idx → EReal) (((cfg0.win 1).blk t).view.emb (r0_2.idx x)) = _
  refine congrArg _ (funext fun a => Fin.ext ?_)
  have hx : (x 1).val < 1 := (x 1).isLt
  match a with
  | ⟨0, _⟩ => show win0_1.index t (0 : Fin 2) * 128 + 1 * (0 + 1 * (x 0).val) = (k 0).val; omega
  | ⟨1, _⟩ => show win0_1.index t (1 : Fin 2) * 2 + 1 * (0 + 1 * (x 1).val) = (k 1).val; omega

/-- … and its column 1. -/
theorem blk1_col1_apply (c : Dev nD) (t : Fin cfg0.N) (x : S128x1.Idx) (k : S128x2.Idx)
    (hk0 : (k 0).val = (x 0).val) (hk1 : (k 1).val = 1) :
    View.ld (iblk m c 1 t : Vec Ideal S128x2 .f32) r0_3 x = (V m c main_call0_v15 : S128x2.Idx → EReal) k := by
  obtain ⟨-, -, e0, e1, -⟩ := index_facts t
  show (V m c main_call0_v15 : S128x2.Idx → EReal) (((cfg0.win 1).blk t).view.emb (r0_3.idx x)) = _
  refine congrArg _ (funext fun a => Fin.ext ?_)
  have hx : (x 1).val < 1 := (x 1).isLt
  match a with
  | ⟨0, _⟩ => show win0_1.index t (0 : Fin 2) * 128 + 1 * (0 + 1 * (x 0).val) = (k 0).val; omega
  | ⟨1, _⟩ => show win0_1.index t (1 : Fin 2) * 2 + 1 * (1 + 1 * (x 1).val) = (k 1).val; omega

/-- The loss row's block at point `t` is its columns from `4096 · t`. -/
theorem blk2_apply (c : Dev nD) (t : Fin cfg0.N) (x : S1x4096.Idx) (k : S1x16384.Idx)
    (hk0 : (k 0).val = (x 0).val) (hk1 : (k 1).val = 4096 * t.val + (x 1).val) :
    (iblk m c 2 t : Vec Ideal S1x4096 .f32) x = (V m c main_call0_v16 : S1x16384.Idx → EReal) k := by
  obtain ⟨-, -, -, -, e0, e1, -⟩ := index_facts t
  show (V m c main_call0_v16 : S1x16384.Idx → EReal) (((cfg0.win 2).blk t).view.emb x) = _
  refine congrArg _ (funext fun a => Fin.ext ?_)
  match a with
  | ⟨0, _⟩ => show win0_2.index t (0 : Fin 2) * 1 + 1 * (x 0).val = (k 0).val; omega
  | ⟨1, _⟩ => show win0_2.index t (1 : Fin 2) * 4096 + 1 * (x 1).val = (k 1).val; omega

/-- The previous-loss row's block likewise. -/
theorem blk3_apply (c : Dev nD) (t : Fin cfg0.N) (x : S1x4096.Idx) (k : S1x16384.Idx)
    (hk0 : (k 0).val = (x 0).val) (hk1 : (k 1).val = 4096 * t.val + (x 1).val) :
    (iblk m c 3 t : Vec Ideal S1x4096 .f32) x = (V m c main_call0_v17 : S1x16384.Idx → EReal) k := by
  obtain ⟨-, -, -, -, -, -, e0, e1, -⟩ := index_facts t
  show (V m c main_call0_v17 : S1x16384.Idx → EReal) (((cfg0.win 3).blk t).view.emb x) = _
  refine congrArg _ (funext fun a => Fin.ext ?_)
  match a with
  | ⟨0, _⟩ => show win0_3.index t (0 : Fin 2) * 1 + 1 * (x 0).val = (k 0).val; omega
  | ⟨1, _⟩ => show win0_3.index t (1 : Fin 2) * 4096 + 1 * (x 1).val = (k 1).val; omega

/-- The parameter rows' block at point `t`: all 126 rows, the columns from `4096 · t`. -/
theorem blk4_apply (c : Dev nD) (t : Fin cfg0.N) (x : S126x4096.Idx) (k : S126x16384.Idx)
    (hk0 : (k 0).val = (x 0).val) (hk1 : (k 1).val = 4096 * t.val + (x 1).val) :
    (iblk m c 4 t : Vec Ideal S126x4096 .f32) x = (V m c main_arg2 : S126x16384.Idx → EReal) k := by
  obtain ⟨-, -, -, -, -, -, -, -, e0, e1, -⟩ := index_facts t
  show (V m c main_arg2 : S126x16384.Idx → EReal) (((cfg0.win 4).blk t).view.emb x) = _
  refine congrArg _ (funext fun a => Fin.ext ?_)
  match a with
  | ⟨0, _⟩ => show win0_4.index t (0 : Fin 2) * 126 + 1 * (x 0).val = (k 0).val; omega
  | ⟨1, _⟩ => show win0_4.index t (1 : Fin 2) * 4096 + 1 * (x 1).val = (k 1).val; omega

/-- Where an entry of the result block at point `t` sits in the result array: same row, column `4096 · t` further. -/
theorem blk5_emb (t : Fin cfg0.N) (x : S128x4096.Idx) (k : S128x16384.Idx)
    (hk0 : (k 0).val = (x 0).val) (hk1 : (k 1).val = 4096 * t.val + (x 1).val) :
    ((cfg0.win 5).blk t).view.emb x = k := by
  obtain ⟨-, -, -, -, -, -, -, -, -, -, e0, e1⟩ := index_facts t
  funext a
  apply Fin.ext
  match a with
  | ⟨0, _⟩ => show win0_5.index t (0 : Fin 2) * 128 + 1 * (x 0).val = (k 0).val; omega
  | ⟨1, _⟩ => show win0_5.index t (1 : Fin 2) * 4096 + 1 * (x 1).val = (k 1).val; omega

/-- WHAT POINT `t` WRITES BACK is block `t` of `G` of the six argument arrays. -/
theorem flushed_eq (c : Dev nD)
    (hl : ∀ i, ∃ r : ℝ, lossA m c i = (r : EReal)) (hp : ∀ i, ∃ r : ℝ, prevA m c i = (r : EReal))
    (hpa : ∀ i, ∃ r : ℝ, paramsA m c i = (r : EReal)) (hw : ∀ i, ∃ r : ℝ, wA m c i = (r : EReal))
    (hs : ∀ i, 0 ≤ (srcA m c i).toInt ∧ (srcA m c i).toInt < 128)
    (hd : ∀ i, 0 ≤ (dstA m c i).toInt ∧ (dstA m c i).toInt < 256) (t : Fin cfg0.N) :
    (dats m 0 c).flushed 5 t = ((cfg0.win 5).blk t).view.read (Elt Ideal)
      (G (lossA m c) (prevA m c) (paramsA m c) (wA m c) (srcA m c) (dstA m c)) := by
  rw [Value.flushed5]
  unfold out0_5
  rw [View.canon_unit_zero zero_offsets]
  simp only [View.ld_unit_zero (S := S128x126) zero_offsets, View.ld_unit_zero (S := S126x4096) zero_offsets,
    View.ld_unit_zero (S := S1x4096) zero_offsets]
  funext y
  obtain ⟨n, q, rfl⟩ : ∃ (n : Fin 128) (q : Fin 4096), y = ix2 n q := ⟨y 0, y 1, eq_ix2 y⟩
  have ht : t.val < 4 := t.isLt
  have hq : q.val < 4096 := q.isLt
  have hcol : 4096 * t.val + q.val < 16384 := by omega
  show k0_pay1 (F := Ideal) (iblk m c 0 t) (iblk m c 4 t) (View.ld (iblk m c 1 t) r0_2) (View.ld (iblk m c 1 t) r0_3)
      (iblk m c 2 t) (iblk m c 3 t) (ix2 n q)
    = G (lossA m c) (prevA m c) (paramsA m c) (wA m c) (srcA m c) (dstA m c) (((cfg0.win 5).blk t).view.emb (ix2 n q))
  refine (KernelBody.pay_apply _ _ _ _ _ _ n q).trans ?_
  rw [blk5_emb t (ix2 n q) (ix2 n (⟨4096 * t.val + q.val, hcol⟩ : Fin 16384)) rfl rfl, G_ix2,
    ← law (lossA m c) (prevA m c) (paramsA m c) (wA m c) (srcA m c) (dstA m c) hl hp hpa hw hs n ⟨4096 * t.val + q.val, hcol⟩]
  have h0 : ∀ p : Fin 126, (iblk m c 0 t : Vec Ideal S128x126 .bf16) (ix2 n p)
      = adj (wA m c) (srcA m c) (dstA m c) (128 + n.val) (2 + p.val) :=
    fun p => (blk0_apply m c t (ix2 n p) (ix2 n p) rfl rfl).trans (V_w0_apply m c hs hd n p)
  have h4 : ∀ p : Fin 126, (iblk m c 4 t : Vec Ideal S126x4096 .f32) (ix2 p q)
      = paramsA m c (ix2 p (⟨4096 * t.val + q.val, hcol⟩ : Fin 16384)) :=
    fun p => (blk4_apply m c t (ix2 p q) (ix2 p (⟨4096 * t.val + q.val, hcol⟩ : Fin 16384)) rfl rfl).trans
      (congrFun (V_main_arg2 m c) _)
  have h1a : View.ld (iblk m c 1 t : Vec Ideal S128x2 .f32) r0_2 (ix2 n (0 : Fin 1))
      = adj (wA m c) (srcA m c) (dstA m c) (128 + n.val) 0 :=
    (blk1_col0_apply m c t (ix2 n (0 : Fin 1)) (ix2 n (0 : Fin 2)) rfl rfl).trans (V_w1_apply0 m c hs hd n)
  have h1b : View.ld (iblk m c 1 t : Vec Ideal S128x2 .f32) r0_3 (ix2 n (0 : Fin 1))
      = adj (wA m c) (srcA m c) (dstA m c) (128 + n.val) 1 :=
    (blk1_col1_apply m c t (ix2 n (0 : Fin 1)) (ix2 n (1 : Fin 2)) rfl rfl).trans (V_w1_apply1 m c hs hd n)
  have h2 : (iblk m c 2 t : Vec Ideal S1x4096 .f32) (ix2 (0 : Fin 1) q)
      = lossA m c (ix1 (⟨4096 * t.val + q.val, hcol⟩ : Fin 16384)) :=
    (blk2_apply m c t (ix2 (0 : Fin 1) q) (ix2 (0 : Fin 1) (⟨4096 * t.val + q.val, hcol⟩ : Fin 16384)) rfl rfl).trans
      (V_w2_apply m c _)
  have h3 : (iblk m c 3 t : Vec Ideal S1x4096 .f32) (ix2 (0 : Fin 1) q)
      = prevA m c (ix1 (⟨4096 * t.val + q.val, hcol⟩ : Fin 16384)) :=
    (blk3_apply m c t (ix2 (0 : Fin 1) q) (ix2 (0 : Fin 1) (⟨4096 * t.val + q.val, hcol⟩ : Fin 16384)) rfl rfl).trans
      (V_w3_apply m c _)
  exact congrArg₂ (· + ·) (congrArg₂ (· + ·)
    (Finset.sum_congr rfl fun p _ => congrArg₂ (· * ·) (h0 p) (h4 p)) (congrArg₂ (· * ·) h1a h2))
    (congrArg₂ (· * ·) h1b h3)

/-- Every index of the result array lies in some point's block: column `d` in the block of point `d / 4096`. -/
theorem cover (i : S128x16384.Idx) :
    ∃ t : Fin cfg0.N, (cfg0.win 5).flush t = true ∧ i ∈ ((cfg0.win 5).blk t).view.set := by
  have hi0 : (i 0).val < 128 := (i 0).isLt
  have hi1 : (i 1).val < 16384 := (i 1).isLt
  have hlt : (i 1).val / 4096 < 4 := by omega
  obtain ⟨t, ht⟩ : ∃ t : Fin cfg0.N, t.val = (i 1).val / 4096 := ⟨⟨(i 1).val / 4096, hlt⟩, rfl⟩
  obtain ⟨-, -, -, -, -, -, -, -, -, -, e0, e1⟩ := index_facts t
  refine ⟨t, flush0_5 t, ?_⟩
  rw [mem_blk]
  intro a
  match a with
  | ⟨0, _⟩ =>
    show win0_5.index t (0 : Fin 2) * 128 ≤ (i 0).val ∧ (i 0).val < win0_5.index t (0 : Fin 2) * 128 + 128
    omega
  | ⟨1, _⟩ =>
    show win0_5.index t (1 : Fin 2) * 4096 ≤ (i 1).val ∧ (i 1).val < win0_5.index t (1 : Fin 2) * 4096 + 4096
    omega

/-- After the run the result array of core `c` is `G` of its six argument arrays. -/
theorem final (c : Dev nD)
    (hl : ∀ i, ∃ r : ℝ, lossA m c i = (r : EReal)) (hp : ∀ i, ∃ r : ℝ, prevA m c i = (r : EReal))
    (hpa : ∀ i, ∃ r : ℝ, paramsA m c i = (r : EReal)) (hw : ∀ i, ∃ r : ℝ, wA m c i = (r : EReal))
    (hs : ∀ i, 0 ≤ (srcA m c i).toInt ∧ (srcA m c i).toInt < 128)
    (hd : ∀ i, 0 ≤ (dstA m c i).toInt ∧ (dstA m c i).toInt < 256) :
    (dats m 0 c).arrAt 5 cfg0.N
      = G (lossA m c) (prevA m c) (paramsA m c) (wA m c) (srcA m c) (dstA m c) := by
  exact (dats m 0 c).arrAt_eq_of_cover 5 (G (lossA m c) (prevA m c) (paramsA m c) (wA m c) (srcA m c) (dstA m c))
    (fun t _ => flushed_eq m c hl hp hpa hw hs hd t) cover

end Cert.Bridge.KernelValue

end
-- ==== Proof.RefFeatures.lean ====
/-
  The reference's feature table and its gather, read at one element.

  The reference stacks the loss, the previous loss and the 126 parameter rows into one table of 128 rows
  (a concatenation along the row axis): row 0 is the loss, row 1 the previous loss, row 2 + p parameter row p.
  It then reads, for every edge, the table's row at the edge's source. A negative source would first be
  wrapped by adding 128, and the read clamps its row into the table; for a source already in [0, 128) neither
  does anything, and the edge reads exactly row `source`.
-/
import proofs.«404425_j16295105921343_3_alg».proof.Proof.Gen.ReferenceIdeal.Read
import proofs.«404425_j16295105921343_3_alg».proof.Proof.Spec
import Idealize.ShloMosaic.Lib.ValueIdx
import Idealize.ShloMosaic.Lib.StableHlo.Predicate
import Idealize.ShloMosaic.Lib.Affine
import Idealize.ShloMosaic.Lib.Pipeline.Value

noncomputable section

namespace Cert.Bridge.RefFeatures

open Idealize.ShloMosaic Idealize.ShloMosaic.ValueIdx Cert.ReferenceIdeal Cert.ReferenceIdeal.Read

/-- The stacked table at row `s`, column `d`. -/
theorem features_apply (x0 x1 : (⟨S16384, .f32⟩ : BufTy).Contents (Elt Ideal))
    (x2 : (⟨S126x16384, .f32⟩ : BufTy).Contents (Elt Ideal)) (s : Fin 128) (d : Fin 16384) :
    val_main_v2 (F := Ideal) x0 x1 x2 (ix2 s d) = Cert.Bridge.featN x0 x1 x2 s.val d := by
  unfold val_main_v2
  by_cases h0 : s.val = 0
  · -- row 0 lies in the first piece, the loss laid out as one row
    refine (concatenate_apply_piece _ _ _ (ix2 s d) 0 (by show (0 : Nat) < 3; omega) S1x16384 (val_main_v0 (F := Ideal) x0) (by rfl) (by rfl)
      0 (by rfl) (ix2 (0 : Fin 1) d) (fun b hb => ?_) ?_).trans ?_
    · match b with
      | ⟨0, _⟩ => exact absurd rfl hb
      | ⟨1, _⟩ => rfl
    · show 0 + 0 = s.val
      omega
    · rw [val_main_v0_apply]
      unfold Cert.Bridge.featN
      rw [if_pos h0]
      congr 1
      funext a
      match a with
      | ⟨0, _⟩ => rfl
  · by_cases h1 : s.val = 1
    · -- row 1 lies in the second piece, the previous loss laid out as one row
      refine (concatenate_apply_piece _ _ _ (ix2 s d) 1 (by show (1 : Nat) < 3; omega) S1x16384 (val_main_v1 (F := Ideal) x1) (by rfl) (by rfl)
        1 (by rfl) (ix2 (0 : Fin 1) d) (fun b hb => ?_) ?_).trans ?_
      · match b with
        | ⟨0, _⟩ => exact absurd rfl hb
        | ⟨1, _⟩ => rfl
      · show 1 + 0 = s.val
        omega
      · rw [val_main_v1_apply]
        unfold Cert.Bridge.featN
        rw [if_neg h0, if_pos h1]
        congr 1
        funext a
        match a with
        | ⟨0, _⟩ => rfl
    · -- row 2 + p lies in the third piece, at parameter row p
      have hs := s.isLt
      refine (concatenate_apply_piece _ _ _ (ix2 s d) 2 (by show (2 : Nat) < 3; omega) S126x16384 x2 (by rfl) (by rfl)
        2 (by rfl) (ix2 (⟨s.val - 2, by omega⟩ : Fin 126) d) (fun b hb => ?_) ?_).trans ?_
      · match b with
        | ⟨0, _⟩ => exact absurd rfl hb
        | ⟨1, _⟩ => rfl
      · show 2 + (s.val - 2) = s.val
        omega
      · unfold Cert.Bridge.featN
        rw [if_neg h0, if_neg h1, dif_pos (show s.val - 2 < 126 by omega)]

/-- The row gather's operand index for the result index (e, d): the row is the start index read off the index
    column at e, signed and clamped into [0, 127]; the column is d. -/
theorem gather_operandIdx (idx : IVec S4096x1 32) (e : Fin 4096) (d : Fin 16384) :
    gather_S128x16384_S4096x1_S4096x16384_1_0_n_n_0_1_116384.operandIdx (ix2 e d) idx
      = (ix2 (⟨min (idx (ix2 e (0 : Fin 1))).toInt.toNat 127, by omega⟩ : Fin 128) d : S128x16384.Idx) := by
  funext a
  refine Fin.ext ?_
  match a with
  | ⟨0, _⟩ =>
    show GatherDims.start _ (ix2 e d) idx 0 + GatherDims.batchCoord _ (ix2 e d) 0 + GatherDims.offCoord _ (ix2 e d) 0
      = min (idx (ix2 e (0 : Fin 1))).toInt.toNat 127
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin S128x16384.rank) ∈ gather_S128x16384_S4096x1_S4096x16384_1_0_n_n_0_1_116384.startIndexMap
      from List.mem_singleton.mpr rfl)]
    have hsi : gather_S128x16384_S4096x1_S4096x16384_1_0_n_n_0_1_116384.siIdx (ix2 e d)
        ⟨List.idxOf (0 : Fin S128x16384.rank) gather_S128x16384_S4096x1_S4096x16384_1_0_n_n_0_1_116384.startIndexMap,
          List.idxOf_lt_length_iff.2 (List.mem_singleton.mpr rfl)⟩ = ix2 e (0 : Fin 1) := by
      funext b
      refine Fin.ext ?_
      match b with
      | ⟨0, _⟩ => rfl
      | ⟨1, _⟩ => rfl
    rw [hsi]
    rfl
  | ⟨1, _⟩ =>
    show GatherDims.start _ (ix2 e d) idx 1 + GatherDims.batchCoord _ (ix2 e d) 1 + GatherDims.offCoord _ (ix2 e d) 1
      = d.val
    rw [GatherDims.batchCoord_eq_zero _ _ _ List.not_mem_nil]
    unfold GatherDims.start
    rw [dif_neg (show (1 : Fin S128x16384.rank) ∉ gather_S128x16384_S4096x1_S4096x16384_1_0_n_n_0_1_116384.startIndexMap
      from fun h => absurd (List.mem_singleton.mp h) (by decide))]
    unfold GatherDims.offCoord
    rw [dif_pos (show (1 : Fin S128x16384.rank) ∈ gather_S128x16384_S4096x1_S4096x16384_1_0_n_n_0_1_116384.sKept
      from (GatherDims.mem_sKept _ _).mpr ⟨fun h => absurd (List.mem_singleton.mp h) (by decide), List.not_mem_nil⟩)]
    simp only [Nat.zero_add]
    rfl

/-- The wrapped source: a source that is not negative fails the test "below 0", so the select keeps it as it is. -/
theorem wrapped_source (x4 : (⟨S4096, .i32⟩ : BufTy).Contents (Elt Ideal)) (i : S4096.Idx) (h : 0 ≤ (x4 i).toInt) :
    val_main_v7 (F := Ideal) x4 i = x4 i := by
  rw [val_main_v7_apply, val_main_v4_apply, val_main_v3_apply, val_main_c_apply]
  have hne : ¬ IntOp.cmpi .slt (x4 i) 0#32 = 1#1 := fun hc => by
    have hlt := IntOp.cmpi_slt.1 hc
    rw [show (0#32 : BitVec 32).toInt = 0 from by decide] at hlt
    omega
  rw [eq_zero_of_ne_one hne, select_zero]

/-- Edge `e`'s gathered row at column `d`: the table's row at the edge's source, for sources in range. -/
theorem gathered_apply (x0 x1 : (⟨S16384, .f32⟩ : BufTy).Contents (Elt Ideal))
    (x2 : (⟨S126x16384, .f32⟩ : BufTy).Contents (Elt Ideal)) (x4 : (⟨S4096, .i32⟩ : BufTy).Contents (Elt Ideal))
    (hs : ∀ i, 0 ≤ (x4 i).toInt ∧ (x4 i).toInt < 128) (e : Fin 4096) (d : Fin 16384) :
    val_main_v9 (F := Ideal) x0 x1 x2 x4 (ix2 e d) = Cert.Bridge.featN x0 x1 x2 (x4 (ix1 e)).toInt.toNat d := by
  -- the start index read at (e, 0) is the wrapped source of edge e, which is the source itself
  have hi : idx_main_v8 (ix2 e (0 : Fin 1)) = ix1 e := by
    funext a
    match a with
    | ⟨0, _⟩ => rfl
  have hv : val_main_v8 (F := Ideal) x4 (ix2 e (0 : Fin 1)) = x4 (ix1 e) := by
    rw [val_main_v8_apply, hi, wrapped_source x4 _ (hs _).1]
  unfold val_main_v9 Host.gather
  rw [gather_operandIdx, features_apply]
  show Cert.Bridge.featN x0 x1 x2 (min (val_main_v8 (F := Ideal) x4 (ix2 e (0 : Fin 1))).toInt.toNat 127) d = _
  -- a source in [0, 128) is at most 127: the clamp keeps it
  rw [hv, Nat.min_eq_left (by have := hs (ix1 e); omega)]

end Cert.Bridge.RefFeatures

end
-- ==== Proof.RefValue.lean ====
/-
  The reference's result is the common function `G` of the six argument arrays.

  The reference multiplies every edge's gathered feature row by the edge's weight and adds the product into the row
  of a 256-row array of zeros named by the edge's destination (a destination outside the 256 slots is dropped). It
  then overwrites the rows 0 … 127 with the feature table and returns the rows 128 … 255. A returned row `128 + n`
  is not among the overwritten ones, so its entry in column `d` is zero plus the sum, over the edges whose
  destination is `128 + n`, of the source's feature entry at `d` times the weight: the edge-by-edge sum `G`.
-/
import proofs.«404425_j16295105921343_3_alg».proof.Proof.Gen.ReferenceIdeal.Read
import proofs.«404425_j16295105921343_3_alg».proof.Proof.Spec
import proofs.«404425_j16295105921343_3_alg».proof.Proof.LibScatter
import proofs.«404425_j16295105921343_3_alg».proof.Proof.RefFeatures
import Idealize.ShloMosaic.Lib.ValueIdx
import Idealize.ShloMosaic.PureOps.Ideal.Laws

noncomputable section

namespace Cert.Bridge.RefValue

open Idealize.ShloMosaic Idealize.ShloMosaic.ValueIdx Cert.ReferenceIdeal Cert.ReferenceIdeal.Read

/-- The accumulated array at slot `r`, column `d`: the edges into `r`, each its source's feature entry times its weight. -/
theorem accumulated_apply (x0 x1 : (⟨S16384, .f32⟩ : BufTy).Contents (Elt Ideal))
    (x2 : (⟨S126x16384, .f32⟩ : BufTy).Contents (Elt Ideal)) (x3 : (⟨S4096, .f32⟩ : BufTy).Contents (Elt Ideal))
    (x4 x5 : (⟨S4096, .i32⟩ : BufTy).Contents (Elt Ideal))
    (hs : ∀ i, 0 ≤ (x4 i).toInt ∧ (x4 i).toInt < 128) (r : Fin 256) (d : Fin 16384) :
    val_main_v15 (F := Ideal) x0 x1 x2 x3 x4 x5 (ix2 r d)
      = ∑ e : Fin 4096, if (x5 (ix1 e)).toInt = (r.val : ℤ)
          then Cert.Bridge.featN x0 x1 x2 (x4 (ix1 e)).toInt.toNat d * x3 (ix1 e) else 0 := by
  unfold val_main_v15
  refine (LibScatter.hostScatterAdd_rows scatter_S256x16384_S4096x1_S4096x16384_1_0_0_1 ⟨rfl, rfl, rfl, rfl⟩ _ _ _ r d).trans ?_
  have h0 : val_main_v13 (F := Ideal) (ix2 r d) = (0 : EReal) := by
    rw [val_main_v13_apply, val_main_cst_apply]
    exact Ideal.ofBits_zero_f32
  rw [h0, zero_add]
  refine Finset.sum_congr rfl fun e _ => ?_
  have hi14 : idx_main_v14 (ix2 e (0 : Fin 1)) = ix1 e := by
    funext a
    match a with
    | ⟨0, _⟩ => rfl
  have hi11 : idx_main_v10 (idx_main_v11 (ix2 e d)) = ix1 e := by
    funext a
    match a with
    | ⟨0, _⟩ => rfl
  have hdst : val_main_v14 (F := Ideal) x5 (ix2 e (0 : Fin 1)) = x5 (ix1 e) := by
    rw [val_main_v14_apply, hi14]
  have hmsg : val_main_v12 (F := Ideal) x0 x1 x2 x3 x4 (ix2 e d)
      = Cert.Bridge.featN x0 x1 x2 (x4 (ix1 e)).toInt.toNat d * x3 (ix1 e) := by
    rw [val_main_v12_apply, Cert.Bridge.RefFeatures.gathered_apply x0 x1 x2 x4 hs e d,
      val_main_v11_apply, val_main_v10_apply, hi11]
    rfl
  rw [hdst, hmsg]

/-- The block of feature rows written over the rows 0 … 127 leaves a row `128 + n` as accumulated. -/
theorem overwritten_apply (x0 x1 : (⟨S16384, .f32⟩ : BufTy).Contents (Elt Ideal))
    (x2 : (⟨S126x16384, .f32⟩ : BufTy).Contents (Elt Ideal)) (x3 : (⟨S4096, .f32⟩ : BufTy).Contents (Elt Ideal))
    (x4 x5 : (⟨S4096, .i32⟩ : BufTy).Contents (Elt Ideal)) (n : Fin 128) (d : Fin 16384) :
    val_main_v17 (F := Ideal) x0 x1 x2 x3 x4 x5 (ix2 (⟨128 + n.val, by have := n.isLt; omega⟩ : Fin 256) d)
      = val_main_v15 (F := Ideal) x0 x1 x2 x3 x4 x5 (ix2 (⟨128 + n.val, by have := n.isLt; omega⟩ : Fin 256) d) := by
  unfold val_main_v17
  refine LibScatter.scatter_apply_of_forall_ne _ _ _ _ _ _ (fun j hj => ?_)
  have hrow := LibScatter.resultIdx?_rowBlock_row scatter_S256x16384_S1_S128x16384_01_n_0_0 ⟨rfl, rfl, rfl, rfl⟩ j
    (val_main_v16 (F := Ideal)) _ hj
  have hstart : (val_main_v16 (F := Ideal) (ix1 (0 : Fin 1))).toInt = 0 := by
    rw [val_main_v16_apply, val_main_c_1_apply]
    decide
  rw [hstart] at hrow
  have hj0 : (j 0).val < 128 := (j 0).isLt
  have : ((128 + n.val : ℕ) : ℤ) = 0 + ((j 0).val : ℤ) := hrow
  omega

/-- The reference's result term, index by index, is `G`. -/
theorem result_eq (x0 x1 : (⟨S16384, .f32⟩ : BufTy).Contents (Elt Ideal))
    (x2 : (⟨S126x16384, .f32⟩ : BufTy).Contents (Elt Ideal)) (x3 : (⟨S4096, .f32⟩ : BufTy).Contents (Elt Ideal))
    (x4 x5 : (⟨S4096, .i32⟩ : BufTy).Contents (Elt Ideal))
    (hs : ∀ i, 0 ≤ (x4 i).toInt ∧ (x4 i).toInt < 128) :
    val_main_v18 (F := Ideal) x0 x1 x2 x3 x4 x5 = Cert.Bridge.G x0 x1 x2 x3 x4 x5 := by
  funext i
  obtain ⟨n, d, rfl⟩ : ∃ (n : Fin 128) (d : Fin 16384), i = ix2 n d := ⟨i 0, i 1, eq_ix2 i⟩
  have hi18 : idx_main_v18 (ix2 n d) = ix2 (⟨128 + n.val, by have := n.isLt; omega⟩ : Fin 256) d := by
    funext a
    match a with
    | ⟨0, _⟩ => rfl
    | ⟨1, _⟩ => rfl
  rw [val_main_v18_apply, hi18, overwritten_apply, accumulated_apply x0 x1 x2 x3 x4 x5 hs, Cert.Bridge.G_ix2]
  unfold Cert.Bridge.Gc
  refine Finset.sum_congr rfl fun e _ => ?_
  refine if_congr ?_ rfl rfl
  show (x5 (ix1 e)).toInt = ((128 + n.val : ℕ) : ℤ) ↔ (x5 (ix1 e)).toInt = (128 + (n.val : ℤ))
  rw [Nat.cast_add, Nat.cast_ofNat]

end Cert.Bridge.RefValue

end
-- ==== Proof.lean ====
/-
  The kernel and its reference compute, for the node slots 128 … 255 and every one of the 16384 columns, the sum over
  the edges into the slot of the source's feature row times the edge's weight, the 128 feature rows being the loss,
  the previous loss and the 126 parameter rows.

  The reference does it edge by edge: it gathers the source's row for every edge, multiplies by the weight, and
  adds the product into the destination's row; overwriting the rows 0 … 127 afterwards does not touch the returned
  rows. The kernel does it feature by feature: on the host it first adds every edge's weight into entry
  (destination, source) of a 256 × 128 matrix, flattened to destination · 128 + source, and the launched body then
  multiplies the rows 128 … 255 of that matrix against the feature rows, column block by column block — the 126
  parameter rows on the matrix unit, the loss and previous-loss rows as two outer products.

  The two agree by exchanging the sum over features with the sum over edges: an edge contributes to exactly one
  entry of the matrix, that of its own source, provided the source is one of the 128 rows and the destination one of
  the 256 slots and the flattened position is read as written. Outside those ranges the two programs treat an
  index differently (the gather clamps a row, the flattened position carries a too-large source into the next
  destination), so the ranges are part of the precondition. Multiplying a weight sum through a feature entry is
  distributivity, which fails on the extended reals at infinities; it is applied to real numbers only, which is
  where the finiteness of the four float arrays is used. Nothing was rewritten by the idealization, so the
  kernel's idealized form is the kernel's own text; the three runs terminate without fault and leave the arguments
  unchanged by the generated frames and the reference's generated run.
-/
import proofs.«404425_j16295105921343_3_alg».proof.Defs
import proofs.«404425_j16295105921343_3_alg».proof.Proof.Gen.Kernel
import proofs.«404425_j16295105921343_3_alg».proof.Proof.Gen.Kernel.Skeleton
import proofs.«404425_j16295105921343_3_alg».proof.Proof.Gen.Kernel.Launch
import proofs.«404425_j16295105921343_3_alg».proof.Proof.Gen.Kernel.Points
import proofs.«404425_j16295105921343_3_alg».proof.Proof.Gen.Kernel.Frame
import proofs.«404425_j16295105921343_3_alg».proof.Proof.Gen.KernelIdeal
import proofs.«404425_j16295105921343_3_alg».proof.Proof.Gen.KernelIdeal.Skeleton
import proofs.«404425_j16295105921343_3_alg».proof.Proof.Gen.KernelIdeal.Launch
import proofs.«404425_j16295105921343_3_alg».proof.Proof.Gen.KernelIdeal.Points
import proofs.«404425_j16295105921343_3_alg».proof.Proof.Gen.KernelIdeal.Frame
import proofs.«404425_j16295105921343_3_alg».proof.Proof.Gen.ReferenceIdeal
import proofs.«404425_j16295105921343_3_alg».proof.Proof.Gen.Pre_finite_inputs
import proofs.«404425_j16295105921343_3_alg».proof.Proof.Gen.KernelIdeal.Value
import proofs.«404425_j16295105921343_3_alg».proof.Proof.Gen.ReferenceIdeal.Run
import proofs.«404425_j16295105921343_3_alg».proof.Proof.Gen.ReferenceIdeal.Read
import proofs.«404425_j16295105921343_3_alg».proof.Proof.PreFacts
import proofs.«404425_j16295105921343_3_alg».proof.Proof.KernelValue
import proofs.«404425_j16295105921343_3_alg».proof.Proof.RefValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨?_, ?_, ?_, trivial, ?_⟩
  · -- the kernel as printed: the generated frame
    exact fun m ρ _ => Cert.Kernel.Gen.frame m ρ
  · -- the kernel read at the ideal instance: the generated frame
    exact fun m ρ _ => Cert.KernelIdeal.Gen.frame m ρ
  · -- the reference: its generated run, the result forgotten
    exact fun m ρ _ => (θ_run Cert.ReferenceIdeal.defs _ _).mono (fun _ h c => (h c).2)
      (Cert.ReferenceIdeal.Value.run (F := Ideal) m ρ)
  · -- equal results: both runs end at the edge-by-edge sum of the agreeing arguments
    intro m ρ m' ρ' hpre hagree
    refine ⟨_, Cert.KernelIdeal.Value.run_blocks (F := Ideal) m ρ, ?_⟩
    refine (θ_run Cert.ReferenceIdeal.defs _ _).mono (fun r h c => ⟨(h c).1.trans ?_, (h c).2⟩)
      (Cert.ReferenceIdeal.Value.run (F := Ideal) m' ρ')
    obtain ⟨hl, hp, hpa, hw, hs, hd⟩ := Cert.Bridge.PreFacts.facts_of_pre _ _ _ _ _ _ (hpre c)
    obtain ⟨a0, a1, a2, a3, a4, a5⟩ := hagree c
    rw [Cert.ReferenceIdeal.Read.val_main_v18_eq, a0, a1, a2, a3, a4, a5,
      Cert.Bridge.KernelValue.final m c hl hp hpa hw hs hd]
    exact Cert.Bridge.RefValue.result_eq _ _ _ _ _ _ hs⟩

end Cert.Proof

end
